-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x80x1 : Shape := ⟨3, ![64, 80, 1]⟩
abbrev S64x64x1 : Shape := ⟨3, ![64, 64, 1]⟩
abbrev S107127x80 : Shape := ⟨2, ![107127, 80]⟩
abbrev S107127x64 : Shape := ⟨2, ![107127, 64]⟩
abbrev S_ : Shape := ⟨0, ![]⟩

class Facts : Prop where
  bcast_S_S64x80x1 : S_.BroadcastsInDim S64x80x1 (![] : Fin 0 → Fin S64x80x1.rank)
  reducesTo_S64x80x1_S_d0_1_2 : S64x80x1.ReducesTo [0, 1, 2] S_
  h_S_ : 0 < S_.numel
  bcast_S_S64x64x1 : S_.BroadcastsInDim S64x64x1 (![] : Fin 0 → Fin S64x64x1.rank)
  reducesTo_S64x64x1_S_d0_1_2 : S64x64x1.ReducesTo [0, 1, 2] S_
  bcast_S_S107127x80 : S_.BroadcastsInDim S107127x80 (![] : Fin 0 → Fin S107127x80.rank)
  reducesTo_S107127x80_S_d0_1 : S107127x80.ReducesTo [0, 1] S_
  bcast_S_S107127x64 : S_.BroadcastsInDim S107127x64 (![] : Fin 0 → Fin S107127x64.rank)
  reducesTo_S107127x64_S_d0_1 : S107127x64.ReducesTo [0, 1] S_

variable [Facts]

def fn_part1 {F : FTy → Type} [FloatOps F] (main_arg4 : FVec F S107127x80 .f32) (main_arg5 : FVec F S107127x64 .f32) (main_v13 : IVec S_ 1) (main_v16 : IVec S64x64x1 1) : IVec S_ 1 :=
  let main_c_5 : IVec S_ 1 := constantI S_ 1 1#1
  let main_v17 : IVec S_ 1 := (fun x v => Host.reduce IntOp.andi x v reducesTo_S64x64x1_S_d0_1_2 h_S_) main_v16 main_c_5
  let main_v18 : IVec S_ 1 := andi main_v13 main_v17
  let main_v19 : FVec F S107127x80 .f32 := Host.absf main_arg4
  let main_cst_6 : FVec F S_ .f32 := constant S_ .f32 0x7F800000#32
  let main_v20 : FVec F S107127x80 .f32 := broadcastInDim S107127x80 ![] bcast_S_S107127x80 main_cst_6
  let main_v21 : IVec S107127x80 1 := cmpf .olt main_v19 main_v20
  let main_c_7 : IVec S_ 1 := constantI S_ 1 1#1
  let main_v22 : IVec S_ 1 := (fun x v => Host.reduce IntOp.andi x v reducesTo_S107127x80_S_d0_1 h_S_) main_v21 main_c_7
  let main_v23 : IVec S_ 1 := andi main_v18 main_v22
  let main_v24 : FVec F S107127x64 .f32 := Host.absf main_arg5
  let main_cst_8 : FVec F S_ .f32 := constant S_ .f32 0x7F800000#32
  let main_v25 : FVec F S107127x64 .f32 := broadcastInDim S107127x64 ![] bcast_S_S107127x64 main_cst_8
  let main_v26 : IVec S107127x64 1 := cmpf .olt main_v24 main_v25
  let main_c_9 : IVec S_ 1 := constantI S_ 1 1#1
  let main_v27 : IVec S_ 1 := (fun x v => Host.reduce IntOp.andi x v reducesTo_S107127x64_S_d0_1 h_S_) main_v26 main_c_9
  let main_v28 : IVec S_ 1 := andi main_v23 main_v27
  main_v28

def fn {F : FTy → Type} [FloatOps F] (main_arg0 : FVec F S64x80x1 .f32) (main_arg1 : FVec F S64x64x1 .f32) (main_arg2 : FVec F S64x80x1 .f32) (main_arg3 : FVec F S64x64x1 .f32) (main_arg4 : FVec F S107127x80 .f32) (main_arg5 : FVec F S107127x64 .f32) : IVec S_ 1 :=
  let main_v0 : FVec F S64x80x1 .f32 := Host.absf main_arg0
  let main_cst : FVec F S_ .f32 := constant S_ .f32 0x7F800000#32
  let main_v1 : FVec F S64x80x1 .f32 := broadcastInDim S64x80x1 ![] bcast_S_S64x80x1 main_cst
  let main_v2 : IVec S64x80x1 1 := cmpf .olt main_v0 main_v1
  let main_c : IVec S_ 1 := constantI S_ 1 1#1
  let main_v3 : IVec S_ 1 := (fun x v => Host.reduce IntOp.andi x v reducesTo_S64x80x1_S_d0_1_2 h_S_) main_v2 main_c
  let main_v4 : FVec F S64x64x1 .f32 := Host.absf main_arg1
  let main_cst_0 : FVec F S_ .f32 := constant S_ .f32 0x7F800000#32
  let main_v5 : FVec F S64x64x1 .f32 := broadcastInDim S64x64x1 ![] bcast_S_S64x64x1 main_cst_0
  let main_v6 : IVec S64x64x1 1 := cmpf .olt main_v4 main_v5
  let main_c_1 : IVec S_ 1 := constantI S_ 1 1#1
  let main_v7 : IVec S_ 1 := (fun x v => Host.reduce IntOp.andi x v reducesTo_S64x64x1_S_d0_1_2 h_S_) main_v6 main_c_1
  let main_v8 : IVec S_ 1 := andi main_v3 main_v7
  let main_v9 : FVec F S64x80x1 .f32 := Host.absf main_arg2
  let main_cst_2 : FVec F S_ .f32 := constant S_ .f32 0x7F800000#32
  let main_v10 : FVec F S64x80x1 .f32 := broadcastInDim S64x80x1 ![] bcast_S_S64x80x1 main_cst_2
  let main_v11 : IVec S64x80x1 1 := cmpf .olt main_v9 main_v10
  let main_c_3 : IVec S_ 1 := constantI S_ 1 1#1
  let main_v12 : IVec S_ 1 := (fun x v => Host.reduce IntOp.andi x v reducesTo_S64x80x1_S_d0_1_2 h_S_) main_v11 main_c_3
  let main_v13 : IVec S_ 1 := andi main_v8 main_v12
  let main_v14 : FVec F S64x64x1 .f32 := Host.absf main_arg3
  let main_cst_4 : FVec F S_ .f32 := constant S_ .f32 0x7F800000#32
  let main_v15 : FVec F S64x64x1 .f32 := broadcastInDim S64x64x1 ![] bcast_S_S64x64x1 main_cst_4
  let main_v16 : IVec S64x64x1 1 := cmpf .olt main_v14 main_v15
  fn_part1 (F := F) main_arg4 main_arg5 main_v13 main_v16
-- ==== Kernel.lean ====
abbrev S64x80x1 : Shape := ⟨3, ![64, 80, 1]⟩
abbrev S64x64x1 : Shape := ⟨3, ![64, 64, 1]⟩
abbrev S107127x80 : Shape := ⟨2, ![107127, 80]⟩
abbrev S107127x64 : Shape := ⟨2, ![107127, 64]⟩
abbrev S256x1 : Shape := ⟨2, ![256, 1]⟩
abbrev S_ : Shape := ⟨0, ![]⟩
abbrev S108544x80 : Shape := ⟨2, ![108544, 80]⟩
abbrev S108544x64 : Shape := ⟨2, ![108544, 64]⟩
abbrev S64x80 : Shape := ⟨2, ![64, 80]⟩
abbrev S64x64 : Shape := ⟨2, ![64, 64]⟩
abbrev S1x1 : Shape := ⟨2, ![1, 1]⟩
abbrev S2048x80 : Shape := ⟨2, ![2048, 80]⟩
abbrev S2048x64 : Shape := ⟨2, ![2048, 64]⟩
abbrev S256x64 : Shape := ⟨2, ![256, 64]⟩
abbrev S80x64 : Shape := ⟨2, ![80, 64]⟩
abbrev S256x2048 : Shape := ⟨2, ![256, 2048]⟩
abbrev S256 : Shape := ⟨1, ![256]⟩
abbrev S1 : Shape := ⟨1, ![1]⟩

abbrev nBuf : Space → Nat
  | .hbm => 20
  | .vmem => 13
  | .smem => 0
  | _ => 0

abbrev bufTy : (tb : Table) → Fin (tcTables nBuf tb) → BufTy
  | .hbm, ⟨0, _⟩ => ⟨S64x80x1, .f32⟩
  | .hbm, ⟨1, _⟩ => ⟨S64x64x1, .f32⟩
  | .hbm, ⟨2, _⟩ => ⟨S64x80x1, .f32⟩
  | .hbm, ⟨3, _⟩ => ⟨S64x64x1, .f32⟩
  | .hbm, ⟨4, _⟩ => ⟨S107127x80, .f32⟩
  | .hbm, ⟨5, _⟩ => ⟨S107127x64, .f32⟩
  | .hbm, ⟨6, _⟩ => ⟨S256x1, .i32⟩
  | .hbm, ⟨7, _⟩ => ⟨S256x1, .f32⟩
  | .hbm, ⟨8, _⟩ => ⟨S_, .i32⟩
  | .hbm, ⟨9, _⟩ => ⟨S_, .f32⟩
  | .hbm, ⟨10, _⟩ => ⟨S108544x80, .f32⟩
  | .hbm, ⟨11, _⟩ => ⟨S_, .i32⟩
  | .hbm, ⟨12, _⟩ => ⟨S_, .f32⟩
  | .hbm, ⟨13, _⟩ => ⟨S108544x64, .f32⟩
  | .hbm, ⟨14, _⟩ => ⟨S64x80, .f32⟩
  | .hbm, ⟨15, _⟩ => ⟨S64x64, .f32⟩
  | .hbm, ⟨16, _⟩ => ⟨S64x80, .f32⟩
  | .hbm, ⟨17, _⟩ => ⟨S64x64, .f32⟩
  | .hbm, ⟨18, _⟩ => ⟨S1x1, .f32⟩
  | .hbm, ⟨19, _⟩ => ⟨S_, .f32⟩
  | .local _ .vmem, ⟨0, _⟩ => ⟨S2048x80, .f32⟩
  | .local _ .vmem, ⟨1, _⟩ => ⟨S2048x80, .f32⟩
  | .local _ .vmem, ⟨2, _⟩ => ⟨S2048x64, .f32⟩
  | .local _ .vmem, ⟨3, _⟩ => ⟨S2048x64, .f32⟩
  | .local _ .vmem, ⟨4, _⟩ => ⟨S64x80, .f32⟩
  | .local _ .vmem, ⟨5, _⟩ => ⟨S64x64, .f32⟩
  | .local _ .vmem, ⟨6, _⟩ => ⟨S64x80, .f32⟩
  | .local _ .vmem, ⟨7, _⟩ => ⟨S64x64, .f32⟩
  | .local _ .vmem, ⟨8, _⟩ => ⟨S256x1, .i32⟩
  | .local _ .vmem, ⟨9, _⟩ => ⟨S256x1, .f32⟩
  | .local _ .vmem, ⟨10, _⟩ => ⟨S1x1, .f32⟩
  | .local _ .vmem, ⟨11, _⟩ => ⟨S256x64, .f32⟩
  | .local _ .vmem, ⟨12, _⟩ => ⟨S256x64, .f32⟩
  | _, _ => ⟨S64x80x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_c_0 : Ref sig .tc := ⟨.hbm, 8, rfl⟩
abbrev main_call0_v0 : Ref sig .tc := ⟨.hbm, 9, rfl⟩
abbrev main_v0 : Ref sig .tc := ⟨.hbm, 10, rfl⟩
abbrev main_c_1 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![53], ![false]⟩

def k0_cond2 (i : grid0.Coords) : BitVec 1 :=
  let arg0 : BitVec 32 := BitVec.ofNat 32 (i 0).val
  let c52_i32 : BitVec 32 := 52#32
  let v55 : BitVec 1 := Scalar.cmpi .eq arg0 c52_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  pads_S107127x80_S108544x80_014170_000 : S107127x80.Pads (![0, 0] : Fin 2 → Nat) ![1417, 0] ![0, 0] S108544x80
  h_S_ : 0 < S_.numel
  pads_S107127x64_S108544x64_014170_000 : S107127x64.Pads (![0, 0] : Fin 2 → Nat) ![1417, 0] ![0, 0] S108544x64
  shapeCasts_S64x80x1_S64x80 : S64x80x1.ShapeCasts S64x80
  shapeCasts_S64x64x1_S64x64 : S64x64x1.ShapeCasts S64x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x80_S2048x80_0_0 : ∀ a, (![0, 0] : Fin 2 → Nat) a + S2048x80.size a ≤ S2048x80.size a
  h_S2048x80 : 0 < S2048x80.numel
  shapeCasts_S2048x80_S2048x80 : S2048x80.ShapeCasts S2048x80
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x80_S64x80_0_0 : ∀ a, (![0, 0] : Fin 2 → Nat) a + S64x80.size a ≤ S64x80.size a
  h_S64x80 : 0 < S64x80.numel
  shapeCasts_S64x80_S64x80 : S64x80.ShapeCasts S64x80
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x80_p1_0_S80x64 : S64x80.Transposes [1, 0] S80x64
  transposes_S64x64_p1_0_S64x64 : S64x64.Transposes [1, 0] S64x64
  iota_S256x2048_d1_w32 : S256x2048.Iotas .tc 32 [1]
  inb_S256x1_S256x1_0_0 : ∀ a, (![0, 0] : Fin 2 → Nat) a + S256x1.size a ≤ S256x1.size a
  h_S256x1 : 0 < S256x1.numel
  broadcasts_S256x1_S256x2048 : S256x1.Broadcasts S256x2048
  natLt_1_32 : 1 < 32
  broadcasts_S256x1_S256x64 : S256x1.Broadcasts S256x64
  reduces_S256x64_S256 : S256x64.Reduces [1] S256
  shapeCasts_S256_S256x1 : S256.ShapeCasts S256x1
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S2048x80_S80x64_S2048x64_1_0_0_1_n_n_wf : DotDims.WF S2048x80 S80x64 S2048x64 [1] [0] [0] [1] [] []
  dot_S2048x64_S64x64_S2048x64_1_0_0_1_n_n_wf : DotDims.WF S2048x64 S64x64 S2048x64 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x80.size a ≤ S108544x80.size a
  hwx0_0 : ∀ i : grid0.Coords, EltTy.bits .f32 = 32 ∨ (Rect.block (s := S108544x80) S2048x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S108544x64.size a
  hwx0_1 : ∀ i : grid0.Coords, EltTy.bits .f32 = 32 ∨ (Rect.block (s := S108544x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x80.size a ≤ S64x80.size a
  hwx0_2 : ∀ i : grid0.Coords, EltTy.bits .f32 = 32 ∨ (Rect.block (s := S64x80) S64x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x80.size a ≤ S64x80.size a
  hwx0_4 : ∀ i : grid0.Coords, EltTy.bits .f32 = 32 ∨ (Rect.block (s := S64x80) S64x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .i32 = 32 ∨ (Rect.block (s := S256x1) S256x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def dot_S2048x80_S80x64_S2048x64_1_0_0_1_n_n : DotDims S2048x80 S80x64 S2048x64 where
  lhsContracting := [1]
  rhsContracting := [0]
  lhsNonContracting := [0]
  rhsNonContracting := [1]
  lhsBatch := []
  rhsBatch := []
  wf := dot_S2048x80_S80x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S2048x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_c) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S64x80x1 : Shape := ⟨3, ![64, 80, 1]⟩
abbrev S64x64x1 : Shape := ⟨3, ![64, 64, 1]⟩
abbrev S107127x80 : Shape := ⟨2, ![107127, 80]⟩
abbrev S107127x64 : Shape := ⟨2, ![107127, 64]⟩
abbrev S68 : Shape := ⟨1, ![68]⟩
abbrev S1x68x1 : Shape := ⟨3, ![1, 68, 1]⟩
abbrev S64x80 : Shape := ⟨2, ![64, 80]⟩
abbrev S64x107127 : Shape := ⟨2, ![64, 107127]⟩
abbrev S64x64 : Shape := ⟨2, ![64, 64]⟩
abbrev S64x35709x3 : Shape := ⟨3, ![64, 35709, 3]⟩
abbrev S_ : Shape := ⟨0, ![]⟩
abbrev S68x1 : Shape := ⟨2, ![68, 1]⟩
abbrev S64x68x3 : Shape := ⟨3, ![64, 68, 3]⟩

abbrev nBuf : Space → Nat
  | .hbm => 47
  | .vmem => 0
  | .smem => 0
  | _ => 0

abbrev bufTy : (tb : Table) → Fin (tcTables nBuf tb) → BufTy
  | .hbm, ⟨0, _⟩ => ⟨S64x80x1, .f32⟩
  | .hbm, ⟨1, _⟩ => ⟨S64x64x1, .f32⟩
  | .hbm, ⟨2, _⟩ => ⟨S64x80x1, .f32⟩
  | .hbm, ⟨3, _⟩ => ⟨S64x64x1, .f32⟩
  | .hbm, ⟨4, _⟩ => ⟨S107127x80, .f32⟩
  | .hbm, ⟨5, _⟩ => ⟨S107127x64, .f32⟩
  | .hbm, ⟨6, _⟩ => ⟨S68, .i32⟩
  | .hbm, ⟨7, _⟩ => ⟨S68, .f32⟩
  | .hbm, ⟨8, _⟩ => ⟨S1x68x1, .f32⟩
  | .hbm, ⟨9, _⟩ => ⟨S64x80, .f32⟩
  | .hbm, ⟨10, _⟩ => ⟨S64x107127, .f32⟩
  | .hbm, ⟨11, _⟩ => ⟨S64x64, .f32⟩
  | .hbm, ⟨12, _⟩ => ⟨S64x107127, .f32⟩
  | .hbm, ⟨13, _⟩ => ⟨S64x107127, .f32⟩
  | .hbm, ⟨14, _⟩ => ⟨S64x35709x3, .f32⟩
  | .hbm, ⟨15, _⟩ => ⟨S_, .i32⟩
  | .hbm, ⟨16, _⟩ => ⟨S68, .i32⟩
  | .hbm, ⟨17, _⟩ => ⟨S68, .i1⟩
  | .hbm, ⟨18, _⟩ => ⟨S_, .i32⟩
  | .hbm, ⟨19, _⟩ => ⟨S68, .i32⟩
  | .hbm, ⟨20, _⟩ => ⟨S68, .i32⟩
  | .hbm, ⟨21, _⟩ => ⟨S68, .i32⟩
  | .hbm, ⟨22, _⟩ => ⟨S68x1, .i32⟩
  | .hbm, ⟨23, _⟩ => ⟨S64x68x3, .f32⟩
  | .hbm, ⟨24, _⟩ => ⟨S64x80, .f32⟩
  | .hbm, ⟨25, _⟩ => ⟨S64x107127, .f32⟩
  | .hbm, ⟨26, _⟩ => ⟨S64x64, .f32⟩
  | .hbm, ⟨27, _⟩ => ⟨S64x107127, .f32⟩
  | .hbm, ⟨28, _⟩ => ⟨S64x107127, .f32⟩
  | .hbm, ⟨29, _⟩ => ⟨S64x35709x3, .f32⟩
  | .hbm, ⟨30, _⟩ => ⟨S_, .i32⟩
  | .hbm, ⟨31, _⟩ => ⟨S68, .i32⟩
  | .hbm, ⟨32, _⟩ => ⟨S68, .i1⟩
  | .hbm, ⟨33, _⟩ => ⟨S_, .i32⟩
  | .hbm, ⟨34, _⟩ => ⟨S68, .i32⟩
  | .hbm, ⟨35, _⟩ => ⟨S68, .i32⟩
  | .hbm, ⟨36, _⟩ => ⟨S68, .i32⟩
  | .hbm, ⟨37, _⟩ => ⟨S68x1, .i32⟩
  | .hbm, ⟨38, _⟩ => ⟨S64x68x3, .f32⟩
  | .hbm, ⟨39, _⟩ => ⟨S64x68x3, .f32⟩
  | .hbm, ⟨40, _⟩ => ⟨S64x68x3, .f32⟩
  | .hbm, ⟨41, _⟩ => ⟨S64x68x3, .f32⟩
  | .hbm, ⟨42, _⟩ => ⟨S64x68x3, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S64x80x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S68_S1x68x1_1 : S68.BroadcastsInDim S1x68x1 (![1] : Fin 1 → Fin S1x68x1.rank)
  shapeCasts_S64x80x1_S64x80 : S64x80x1.ShapeCasts S64x80
  shapeCasts_S64x64x1_S64x64 : S64x64x1.ShapeCasts S64x64
  shapeCasts_S64x107127_S64x35709x3 : S64x107127.ShapeCasts S64x35709x3
  bcast_S_S68 : S_.BroadcastsInDim S68 (![] : Fin 0 → Fin S68.rank)
  bcast_S68_S68x1_0 : S68.BroadcastsInDim S68x1 (![0] : Fin 1 → Fin S68x1.rank)
  bcast_S1x68x1_S64x68x3_0_1_2 : S1x68x1.BroadcastsInDim S64x68x3 (![0, 1, 2] : Fin 3 → Fin S64x68x3.rank)
  reducesTo_S64x68x3_S_d0_1_2 : S64x68x3.ReducesTo [0, 1, 2] S_
  h_S_ : 0 < S_.numel
  dot_S64x80_S107127x80_S64x107127_1_1_0_0_n_n_wf : DotDims.WF S64x80 S107127x80 S64x107127 [1] [1] [0] [0] [] []
  dot_S64x64_S107127x64_S64x107127_1_1_0_0_n_n_wf : DotDims.WF S64x64 S107127x64 S64x107127 [1] [1] [0] [0] [] []
  gather_S64x35709x3_S68x1_S64x68x3_02_1_n_n_1_1_6413_wf : GatherDims.WF S64x35709x3 S68x1 S64x68x3 [0, 2] [1] [] [1] [] 1 ![64, 1, 3]

variable [Facts₀]

def dot_S64x80_S107127x80_S64x107127_1_1_0_0_n_n : DotDims S64x80 S107127x80 S64x107127 where
  lhsContracting := [1]
  rhsContracting := [1]
  lhsNonContracting := [0]
  rhsNonContracting := [0]
  lhsBatch := []
  rhsBatch := []
  wf := dot_S64x80_S107127x80_S64x107127_1_1_0_0_n_n_wf
def dot_S64x64_S107127x64_S64x107127_1_1_0_0_n_n : DotDims S64x64 S107127x64 S64x107127 where
  lhsContracting := [1]
  rhsContracting := [1]
  lhsNonContracting := [0]
  rhsNonContracting := [0]
  lhsBatch := []
  rhsBatch := []
  wf := dot_S64x64_S107127x64_S64x107127_1_1_0_0_n_n_wf
def gather_S64x35709x3_S68x1_S64x68x3_02_1_n_n_1_1_6413 : GatherDims S64x35709x3 S68x1 S64x68x3 where
  offsetDims := [0, 2]
  collapsedSliceDims := [1]
  operandBatchingDims := []
  startIndicesBatchingDims := []
  startIndexMap := [1]
  indexVectorDim := 1
  sliceSizes := ![64, 1, 3]
  wf := gather_S64x35709x3_S68x1_S64x68x3_02_1_n_n_1_1_6413_wf

class Facts : Prop extends Facts₀ where

variable [Facts]
-- ==== Proof.KPieces.lean ====
/-
  What one run of the kernel body leaves behind, as values.

  The body keeps two accumulators, one per coefficient set, each a 256 × 64 array carried from grid point to grid
  point.  At every point it adds to accumulator 0 the product of the point's one-hot selection matrix with the point's
  tile of the first geometry, and to accumulator 1 the same with the second geometry (`step0`, `step1`).  At the first
  point both accumulators are first set to zero, so what is left is the step applied to the zero array; at every later
  point it is the step applied to what the point before left.  At the last point the body also stores the result:
  the weighted, summed, scaled squared difference of the two accumulators just updated (`finish`).
-/
import proofs.«104038_j4947802325291_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.GeoLoss.K

open Cert.KernelIdeal Cert.KernelIdeal.Gen

variable {F : FTy → Type} [FloatOps F]

theorem hz : (![0, 0] : Fin 2 → Nat) = fun _ => 0 := funext fun a => by fin_cases a <;> rfl

/-- One point's update of accumulator 0: the accumulator plus the selection matrix times the tile of the first
    geometry (the bases' blocks x0, x1 against the first coefficient set x2, x3; the row table x6; the point i). -/
abbrev step0 (i : grid0.Coords) (x0 : Vec F S2048x80 .f32) (x1 : Vec F S2048x64 .f32) (x2 : Vec F S64x80 .f32)
    (x3 : Vec F S64x64 .f32) (x6 : Vec F S256x1 .i32) (acc : Vec F S256x64 .f32) : Vec F S256x64 .f32 :=
  k0_pay2 (k0_pay9 x0 x1 x2 x3) (k0_pay11 i) (k0_pay12 (F := F) x6) acc

/-- One point's update of accumulator 1: the same with the second coefficient set x4, x5. -/
abbrev step1 (i : grid0.Coords) (x0 : Vec F S2048x80 .f32) (x1 : Vec F S2048x64 .f32) (x4 : Vec F S64x80 .f32)
    (x5 : Vec F S64x64 .f32) (x6 : Vec F S256x1 .i32) (acc : Vec F S256x64 .f32) : Vec F S256x64 .f32 :=
  k0_pay3 (k0_pay10 x0 x1 x4 x5) (k0_pay11 i) (k0_pay12 (F := F) x6) acc

/-- The result the last point stores, from the two accumulators and the weight table x7. -/
abbrev finish (s0 s1 : Vec F S256x64 .f32) (x7 : Vec F S256x1 .f32) : Vec F S1x1 .f32 := k0_pay4 s0 s1 x7

/-- The array of zeros the first point stores into each accumulator before it adds. -/
abbrev zeros : Vec F S256x64 .f32 := k0_pay5 (F := F)

/-- The first point: accumulator 0 is set to zero and stepped. -/
theorem acc0_A (c : Dev nD) (i : grid0.Coords) (arg1 : Memref sig .tc .vmem S2048x80 .f32) (harg1 : arg1.IsWhole) (arg2 : Memref sig .tc .vmem S2048x64 .f32) (harg2 : arg2.IsWhole) (arg3 : Memref sig .tc .vmem S64x80 .f32) (harg3 : arg3.IsWhole) (arg4 : Memref sig .tc .vmem S64x64 .f32) (harg4 : arg4.IsWhole) (arg5 : Memref sig .tc .vmem S64x80 .f32) (harg5 : arg5.IsWhole) (arg6 : Memref sig .tc .vmem S64x64 .f32) (harg6 : arg6.IsWhole) (arg7 : Memref sig .tc .vmem S256x1 .i32) (harg7 : arg7.IsWhole) (arg8 : Memref sig .tc .vmem S256x1 .f32) (harg8 : arg8.IsWhole) (arg9 : Memref sig .tc .vmem S1x1 .f32) (harg9 : arg9.IsWhole) (arg10 : Memref sig .tc .vmem S256x64 .f32) (harg10 : arg10.IsWhole) (arg11 : Memref sig .tc .vmem S256x64 .f32) (harg11 : arg11.IsWhole) (hc0 : cond0_0 i) (hc1 : ¬cond0_1 i)
    (x0 : Vec F S2048x80 .f32) (x1 : Vec F S2048x64 .f32) (x2 : Vec F S64x80 .f32) (x3 : Vec F S64x64 .f32) (x4 : Vec F S64x80 .f32) (x5 : Vec F S64x64 .f32) (x6 : Vec F S256x1 .i32) (x7 : Vec F S256x1 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = step0 i x0 x1 x2 x3 x6 (k0_pay5 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S256x64) hz, View.readCov_unit_zero (S := S256x64) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x64) hz, View.ld_unit_zero (S := S2048x80) hz, View.ld_unit_zero (S := S2048x64) hz, View.ld_unit_zero (S := S64x80) hz, View.ld_unit_zero (S := S64x64) hz, View.ld_unit_zero (S := S256x1) hz, View.ld_unit_zero (S := S1x1) hz]

/-- The first point: accumulator 1 is set to zero and stepped. -/
theorem acc1_A (c : Dev nD) (i : grid0.Coords) (arg1 : Memref sig .tc .vmem S2048x80 .f32) (harg1 : arg1.IsWhole) (arg2 : Memref sig .tc .vmem S2048x64 .f32) (harg2 : arg2.IsWhole) (arg3 : Memref sig .tc .vmem S64x80 .f32) (harg3 : arg3.IsWhole) (arg4 : Memref sig .tc .vmem S64x64 .f32) (harg4 : arg4.IsWhole) (arg5 : Memref sig .tc .vmem S64x80 .f32) (harg5 : arg5.IsWhole) (arg6 : Memref sig .tc .vmem S64x64 .f32) (harg6 : arg6.IsWhole) (arg7 : Memref sig .tc .vmem S256x1 .i32) (harg7 : arg7.IsWhole) (arg8 : Memref sig .tc .vmem S256x1 .f32) (harg8 : arg8.IsWhole) (arg9 : Memref sig .tc .vmem S1x1 .f32) (harg9 : arg9.IsWhole) (arg10 : Memref sig .tc .vmem S256x64 .f32) (harg10 : arg10.IsWhole) (arg11 : Memref sig .tc .vmem S256x64 .f32) (harg11 : arg11.IsWhole) (hc0 : cond0_0 i) (hc1 : ¬cond0_1 i)
    (x0 : Vec F S2048x80 .f32) (x1 : Vec F S2048x64 .f32) (x2 : Vec F S64x80 .f32) (x3 : Vec F S64x64 .f32) (x4 : Vec F S64x80 .f32) (x5 : Vec F S64x64 .f32) (x6 : Vec F S256x1 .i32) (x7 : Vec F S256x1 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 = step1 i x0 x1 x4 x5 x6 (k0_pay6 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S256x64) hz, View.readCov_unit_zero (S := S256x64) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x64) hz, View.ld_unit_zero (S := S2048x80) hz, View.ld_unit_zero (S := S2048x64) hz, View.ld_unit_zero (S := S64x80) hz, View.ld_unit_zero (S := S64x64) hz, View.ld_unit_zero (S := S256x1) hz, View.ld_unit_zero (S := S1x1) hz]

/-- A later point that is not the last: accumulator 0 is stepped from what it held. -/
theorem acc0_B (c : Dev nD) (i : grid0.Coords) (arg1 : Memref sig .tc .vmem S2048x80 .f32) (harg1 : arg1.IsWhole) (arg2 : Memref sig .tc .vmem S2048x64 .f32) (harg2 : arg2.IsWhole) (arg3 : Memref sig .tc .vmem S64x80 .f32) (harg3 : arg3.IsWhole) (arg4 : Memref sig .tc .vmem S64x64 .f32) (harg4 : arg4.IsWhole) (arg5 : Memref sig .tc .vmem S64x80 .f32) (harg5 : arg5.IsWhole) (arg6 : Memref sig .tc .vmem S64x64 .f32) (harg6 : arg6.IsWhole) (arg7 : Memref sig .tc .vmem S256x1 .i32) (harg7 : arg7.IsWhole) (arg8 : Memref sig .tc .vmem S256x1 .f32) (harg8 : arg8.IsWhole) (arg9 : Memref sig .tc .vmem S1x1 .f32) (harg9 : arg9.IsWhole) (arg10 : Memref sig .tc .vmem S256x64 .f32) (harg10 : arg10.IsWhole) (arg11 : Memref sig .tc .vmem S256x64 .f32) (harg11 : arg11.IsWhole) (hc0 : ¬cond0_0 i) (hc1 : ¬cond0_1 i)
    (x0 : Vec F S2048x80 .f32) (x1 : Vec F S2048x64 .f32) (x2 : Vec F S64x80 .f32) (x3 : Vec F S64x64 .f32) (x4 : Vec F S64x80 .f32) (x5 : Vec F S64x64 .f32) (x6 : Vec F S256x1 .i32) (x7 : Vec F S256x1 .f32) (xs0 : Vec F S256x64 .f32) (xs1 : Vec F S256x64 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = step0 i x0 x1 x2 x3 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x64) hz, View.ld_unit_zero (S := S2048x80) hz, View.ld_unit_zero (S := S2048x64) hz, View.ld_unit_zero (S := S64x80) hz, View.ld_unit_zero (S := S64x64) hz, View.ld_unit_zero (S := S256x1) hz, View.ld_unit_zero (S := S1x1) hz]

/-- A later point that is not the last: accumulator 1 is stepped from what it held. -/
theorem acc1_B (c : Dev nD) (i : grid0.Coords) (arg1 : Memref sig .tc .vmem S2048x80 .f32) (harg1 : arg1.IsWhole) (arg2 : Memref sig .tc .vmem S2048x64 .f32) (harg2 : arg2.IsWhole) (arg3 : Memref sig .tc .vmem S64x80 .f32) (harg3 : arg3.IsWhole) (arg4 : Memref sig .tc .vmem S64x64 .f32) (harg4 : arg4.IsWhole) (arg5 : Memref sig .tc .vmem S64x80 .f32) (harg5 : arg5.IsWhole) (arg6 : Memref sig .tc .vmem S64x64 .f32) (harg6 : arg6.IsWhole) (arg7 : Memref sig .tc .vmem S256x1 .i32) (harg7 : arg7.IsWhole) (arg8 : Memref sig .tc .vmem S256x1 .f32) (harg8 : arg8.IsWhole) (arg9 : Memref sig .tc .vmem S1x1 .f32) (harg9 : arg9.IsWhole) (arg10 : Memref sig .tc .vmem S256x64 .f32) (harg10 : arg10.IsWhole) (arg11 : Memref sig .tc .vmem S256x64 .f32) (harg11 : arg11.IsWhole) (hc0 : ¬cond0_0 i) (hc1 : ¬cond0_1 i)
    (x0 : Vec F S2048x80 .f32) (x1 : Vec F S2048x64 .f32) (x2 : Vec F S64x80 .f32) (x3 : Vec F S64x64 .f32) (x4 : Vec F S64x80 .f32) (x5 : Vec F S64x64 .f32) (x6 : Vec F S256x1 .i32) (x7 : Vec F S256x1 .f32) (xs0 : Vec F S256x64 .f32) (xs1 : Vec F S256x64 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = step1 i x0 x1 x4 x5 x6 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x64) hz, View.ld_unit_zero (S := S2048x80) hz, View.ld_unit_zero (S := S2048x64) hz, View.ld_unit_zero (S := S64x80) hz, View.ld_unit_zero (S := S64x64) hz, View.ld_unit_zero (S := S256x1) hz, View.ld_unit_zero (S := S1x1) hz]

/-- The last point: accumulator 0 is stepped from what it held. -/
theorem acc0_C (c : Dev nD) (i : grid0.Coords) (arg1 : Memref sig .tc .vmem S2048x80 .f32) (harg1 : arg1.IsWhole) (arg2 : Memref sig .tc .vmem S2048x64 .f32) (harg2 : arg2.IsWhole) (arg3 : Memref sig .tc .vmem S64x80 .f32) (harg3 : arg3.IsWhole) (arg4 : Memref sig .tc .vmem S64x64 .f32) (harg4 : arg4.IsWhole) (arg5 : Memref sig .tc .vmem S64x80 .f32) (harg5 : arg5.IsWhole) (arg6 : Memref sig .tc .vmem S64x64 .f32) (harg6 : arg6.IsWhole) (arg7 : Memref sig .tc .vmem S256x1 .i32) (harg7 : arg7.IsWhole) (arg8 : Memref sig .tc .vmem S256x1 .f32) (harg8 : arg8.IsWhole) (arg9 : Memref sig .tc .vmem S1x1 .f32) (harg9 : arg9.IsWhole) (arg10 : Memref sig .tc .vmem S256x64 .f32) (harg10 : arg10.IsWhole) (arg11 : Memref sig .tc .vmem S256x64 .f32) (harg11 : arg11.IsWhole) (hc0 : ¬cond0_0 i) (hc1 : cond0_1 i)
    (x0 : Vec F S2048x80 .f32) (x1 : Vec F S2048x64 .f32) (x2 : Vec F S64x80 .f32) (x3 : Vec F S64x64 .f32) (x4 : Vec F S64x80 .f32) (x5 : Vec F S64x64 .f32) (x6 : Vec F S256x1 .i32) (x7 : Vec F S256x1 .f32) (xs0 : Vec F S256x64 .f32) (xs1 : Vec F S256x64 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = step0 i x0 x1 x2 x3 x6 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x64) hz, View.ld_unit_zero (S := S2048x80) hz, View.ld_unit_zero (S := S2048x64) hz, View.ld_unit_zero (S := S64x80) hz, View.ld_unit_zero (S := S64x64) hz, View.ld_unit_zero (S := S256x1) hz, View.ld_unit_zero (S := S1x1) hz]

/-- The last point: accumulator 1 is stepped from what it held. -/
theorem acc1_C (c : Dev nD) (i : grid0.Coords) (arg1 : Memref sig .tc .vmem S2048x80 .f32) (harg1 : arg1.IsWhole) (arg2 : Memref sig .tc .vmem S2048x64 .f32) (harg2 : arg2.IsWhole) (arg3 : Memref sig .tc .vmem S64x80 .f32) (harg3 : arg3.IsWhole) (arg4 : Memref sig .tc .vmem S64x64 .f32) (harg4 : arg4.IsWhole) (arg5 : Memref sig .tc .vmem S64x80 .f32) (harg5 : arg5.IsWhole) (arg6 : Memref sig .tc .vmem S64x64 .f32) (harg6 : arg6.IsWhole) (arg7 : Memref sig .tc .vmem S256x1 .i32) (harg7 : arg7.IsWhole) (arg8 : Memref sig .tc .vmem S256x1 .f32) (harg8 : arg8.IsWhole) (arg9 : Memref sig .tc .vmem S1x1 .f32) (harg9 : arg9.IsWhole) (arg10 : Memref sig .tc .vmem S256x64 .f32) (harg10 : arg10.IsWhole) (arg11 : Memref sig .tc .vmem S256x64 .f32) (harg11 : arg11.IsWhole) (hc0 : ¬cond0_0 i) (hc1 : cond0_1 i)
    (x0 : Vec F S2048x80 .f32) (x1 : Vec F S2048x64 .f32) (x2 : Vec F S64x80 .f32) (x3 : Vec F S64x64 .f32) (x4 : Vec F S64x80 .f32) (x5 : Vec F S64x64 .f32) (x6 : Vec F S256x1 .i32) (x7 : Vec F S256x1 .f32) (xs0 : Vec F S256x64 .f32) (xs1 : Vec F S256x64 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = step1 i x0 x1 x4 x5 x6 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x64) hz, View.ld_unit_zero (S := S2048x80) hz, View.ld_unit_zero (S := S2048x64) hz, View.ld_unit_zero (S := S64x80) hz, View.ld_unit_zero (S := S64x64) hz, View.ld_unit_zero (S := S256x1) hz, View.ld_unit_zero (S := S1x1) hz]

/-- The last point: the stored result is the finish of the two accumulators as just stepped. -/
theorem out_C (c : Dev nD) (i : grid0.Coords) (arg1 : Memref sig .tc .vmem S2048x80 .f32) (harg1 : arg1.IsWhole) (arg2 : Memref sig .tc .vmem S2048x64 .f32) (harg2 : arg2.IsWhole) (arg3 : Memref sig .tc .vmem S64x80 .f32) (harg3 : arg3.IsWhole) (arg4 : Memref sig .tc .vmem S64x64 .f32) (harg4 : arg4.IsWhole) (arg5 : Memref sig .tc .vmem S64x80 .f32) (harg5 : arg5.IsWhole) (arg6 : Memref sig .tc .vmem S64x64 .f32) (harg6 : arg6.IsWhole) (arg7 : Memref sig .tc .vmem S256x1 .i32) (harg7 : arg7.IsWhole) (arg8 : Memref sig .tc .vmem S256x1 .f32) (harg8 : arg8.IsWhole) (arg9 : Memref sig .tc .vmem S1x1 .f32) (harg9 : arg9.IsWhole) (arg10 : Memref sig .tc .vmem S256x64 .f32) (harg10 : arg10.IsWhole) (arg11 : Memref sig .tc .vmem S256x64 .f32) (harg11 : arg11.IsWhole) (hc0 : ¬cond0_0 i) (hc1 : cond0_1 i)
    (x0 : Vec F S2048x80 .f32) (x1 : Vec F S2048x64 .f32) (x2 : Vec F S64x80 .f32) (x3 : Vec F S64x64 .f32) (x4 : Vec F S64x80 .f32) (x5 : Vec F S64x64 .f32) (x6 : Vec F S256x1 .i32) (x7 : Vec F S256x1 .f32) (xs0 : Vec F S256x64 .f32) (xs1 : Vec F S256x64 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = finish (step0 i x0 x1 x2 x3 x6 xs0) (step1 i x0 x1 x4 x5 x6 xs1) x7 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x64) hz, View.ld_unit_zero (S := S2048x80) hz, View.ld_unit_zero (S := S2048x64) hz, View.ld_unit_zero (S := S64x80) hz, View.ld_unit_zero (S := S64x64) hz, View.ld_unit_zero (S := S256x1) hz, View.ld_unit_zero (S := S1x1) hz, View.readCov_unit_zero (S := S256x64) _ hz]

end Cert.GeoLoss.K

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KStep.lean ====
/-
  The kernel body's arithmetic, read entry by entry over the extended reals.

  A point of the grid holds a tile of 2048 basis rows.  The tile's geometry at row v and batch element b is the sum
  over k of the identity basis times the identity coefficients plus the sum over k of the expression basis times the
  expression coefficients (two products with transposed coefficient blocks into zero accumulators, added; the changes
  of float format are the identity here).  The selection matrix at slot l and tile row v is one when the slot's table
  word is the row's number 2048·t + v, t the point's coordinate, and zero otherwise (an integer compare, widened and
  converted).  One step of an accumulator adds, at slot l and batch b, the sum over the tile's rows of the selection
  entry times the tile geometry.  The finishing step, from the two accumulators and the weight column, is the sum over
  slots and batch of weight × (difference)², divided by the word 68.0 denotes.
-/
import proofs.«104038_j4947802325291_1_alg».proof.Proof.Gen.KernelIdeal.Skeleton
import proofs.«104038_j4947802325291_1_alg».proof.Proof.LibPlainDot
import Idealize.ShloMosaic.PureOps.Ideal.Laws
import Idealize.ShloMosaic.Lib.ValueIdx
import Idealize.ShloMosaic.Lib.Pipeline.Value

noncomputable section

open scoped BigOperators

namespace Cert.GeoLoss.K

open Cert.KernelIdeal Cert.KernelIdeal.Gen Idealize.ShloMosaic Idealize.ShloMosaic.TcCoe Idealize.ShloMosaic.ValueIdx

/-- The selection entry as a number: one at the row the slot's word names, zero elsewhere. -/
abbrev sel (w : BitVec 32) (t : ℕ) (v : Fin 2048) : EReal := if w.toNat = 2048 * t + v.val then 1 else 0

/-- A tile's geometry at tile row v and batch element b. -/
abbrev tileGeo (x0 : Vec Ideal S2048x80 .f32) (x1 : Vec Ideal S2048x64 .f32) (xa : Vec Ideal S64x80 .f32)
    (xd : Vec Ideal S64x64 .f32) (v : Fin 2048) (b : Fin 64) : EReal :=
  (∑ k : Fin 80, x0 (ix2 v k) * xa (ix2 b k)) + ∑ k : Fin 64, x1 (ix2 v k) * xd (ix2 b k)

/-- The basis tile in the narrower format is the tile itself. -/
private theorem pay7_apply (x0 : Vec Ideal S2048x80 .f32) (j : S2048x80.Idx) :
    k0_pay7 (F := Ideal) x0 j = x0 j := by
  unfold k0_pay7
  refine (truncf_apply (ψ := .bf16) _ bitsLt_bf16_f32 _).trans ?_
  rw [shapeCast_self]

/-- The expression tile in the narrower format is the tile itself. -/
private theorem pay8_apply (x1 : Vec Ideal S2048x64 .f32) (j : S2048x64.Idx) :
    k0_pay8 (F := Ideal) x1 j = x1 j := by
  unfold k0_pay8
  refine (truncf_apply (ψ := .bf16) _ bitsLt_bf16_f32 _).trans ?_
  rw [shapeCast_self]

/-- The transposed 64×80 block at (κ, b) is the block at (b, κ). -/
private theorem transpose80_apply {φ : FTy} (x : FVec Ideal S64x80 φ) (κ : Fin 80) (b : Fin 64) :
    transpose S80x64 [1, 0] x transposes_S64x80_p1_0_S80x64 (ix2 κ b) = x (ix2 b κ) := by
  refine transpose_apply _ _ _ (ix2 κ b) (ix2 b κ) ?_
  intro c
  match c with
  | ⟨0, _⟩ => rfl
  | ⟨1, _⟩ => rfl

/-- The transposed 64×64 block at (κ, b) is the block at (b, κ). -/
private theorem transpose64_apply {φ : FTy} (x : FVec Ideal S64x64 φ) (κ : Fin 64) (b : Fin 64) :
    transpose S64x64 [1, 0] x transposes_S64x64_p1_0_S64x64 (ix2 κ b) = x (ix2 b κ) := by
  refine transpose_apply _ _ _ (ix2 κ b) (ix2 b κ) ?_
  intro c
  match c with
  | ⟨0, _⟩ => rfl
  | ⟨1, _⟩ => rfl

/-- The two products of a tile's geometry, read at (v, b), for any pair of coefficient blocks. -/
private theorem geo_core (x0 : Vec Ideal S2048x80 .f32) (x1 : Vec Ideal S2048x64 .f32) (xa : Vec Ideal S64x80 .f32)
    (xd : Vec Ideal S64x64 .f32) (v : Fin 2048) (b : Fin 64) :
    addf
      (matmul dot_S2048x80_S80x64_S2048x64_1_0_0_1_n_n none (k0_pay7 (F := Ideal) x0)
        (transpose S80x64 [1, 0] (truncf .bf16 (shapeCast S64x80 xa shapeCasts_S64x80_S64x80) bitsLt_bf16_f32)
          transposes_S64x80_p1_0_S80x64)
        (constant S2048x64 .f32 0x00000000#32))
      (matmul dot_S2048x64_S64x64_S2048x64_1_0_0_1_n_n none (k0_pay8 (F := Ideal) x1)
        (transpose S64x64 [1, 0] (truncf .bf16 (shapeCast S64x64 xd shapeCasts_S64x64_S64x64) bitsLt_bf16_f32)
          transposes_S64x64_p1_0_S64x64)
        (constant S2048x64 .f32 0x00000000#32)) (ix2 v b) = tileGeo x0 x1 xa xd v b := by
  refine (addf_apply _ _ _).trans ?_
  refine congrArg₂ (· + ·) ?_ ?_
  · refine (PlainDot.matmul_zero_plain _ ⟨rfl, rfl, rfl, rfl, rfl, rfl⟩ none _ _ v b).trans ?_
    refine Finset.sum_congr rfl fun κ _ => ?_
    refine congrArg₂ (· * ·) (pay7_apply x0 _) ?_
    refine (transpose80_apply _ κ b).trans ?_
    refine (truncf_apply (ψ := .bf16) _ bitsLt_bf16_f32 _).trans ?_
    rw [shapeCast_self]
  · refine (PlainDot.matmul_zero_plain _ ⟨rfl, rfl, rfl, rfl, rfl, rfl⟩ none _ _ v b).trans ?_
    refine Finset.sum_congr rfl fun κ _ => ?_
    refine congrArg₂ (· * ·) (pay8_apply x1 _) ?_
    refine (transpose64_apply _ κ b).trans ?_
    refine (truncf_apply (ψ := .bf16) _ bitsLt_bf16_f32 _).trans ?_
    rw [shapeCast_self]

theorem geo0_apply (x0 : Vec Ideal S2048x80 .f32) (x1 : Vec Ideal S2048x64 .f32) (x2 : Vec Ideal S64x80 .f32)
    (x3 : Vec Ideal S64x64 .f32) (v : Fin 2048) (b : Fin 64) :
    k0_pay9 (F := Ideal) x0 x1 x2 x3 (ix2 v b) = tileGeo x0 x1 x2 x3 v b := by
  unfold k0_pay9
  exact geo_core x0 x1 x2 x3 v b

theorem geo1_apply (x0 : Vec Ideal S2048x80 .f32) (x1 : Vec Ideal S2048x64 .f32) (x4 : Vec Ideal S64x80 .f32)
    (x5 : Vec Ideal S64x64 .f32) (v : Fin 2048) (b : Fin 64) :
    k0_pay10 (F := Ideal) x0 x1 x4 x5 (ix2 v b) = tileGeo x0 x1 x4 x5 v b := by
  unfold k0_pay10
  exact geo_core x0 x1 x4 x5 v b

/-- For t below 53 and v below 2048 the word v + t·2048 does not wrap: its value is 2048·t + v. -/
private theorem word_toNat (t v : ℕ) (ht : t < 53) (hv : v < 2048) :
    (BitVec.ofNat 32 v + BitVec.ofNat 32 t * 2048#32).toNat = 2048 * t + v := by
  have h1 : t % 2 ^ 32 = t := Nat.mod_eq_of_lt (by omega)
  have h2 : v % 2 ^ 32 = v := Nat.mod_eq_of_lt (by omega)
  simp only [BitVec.toNat_add, BitVec.toNat_mul, BitVec.toNat_ofNat, h1, h2]
  omega

/-- So a word equals it exactly when the word's value is 2048·t + v. -/
private theorem word_eq_iff (w : BitVec 32) (t v : ℕ) (ht : t < 53) (hv : v < 2048) :
    w = BitVec.ofNat 32 v + BitVec.ofNat 32 t * 2048#32 ↔ w.toNat = 2048 * t + v := by
  constructor
  · intro h; rw [h, word_toNat t v ht hv]
  · intro h; exact BitVec.eq_of_toNat_eq (h.trans (word_toNat t v ht hv).symm)

/-- The compare bit, widened to 32 bits and read as a signed integer, is one when the word's value is 2048·t + v and
    zero otherwise. -/
private theorem sel_word (w : BitVec 32) (t : ℕ) (v : Fin 2048) (ht : t < 53) :
    FloatOps.sitofp (F := Ideal) .f32
      ((IntOp.cmpi .eq w (BitVec.ofNat 32 v.val + BitVec.ofNat 32 t * 2048#32)).setWidth 32) = sel w t v := by
  show ((((IntOp.cmpi .eq w (BitVec.ofNat 32 v.val + BitVec.ofNat 32 t * 2048#32)).setWidth 32).toInt : ℝ) : EReal) = _
  by_cases h : w.toNat = 2048 * t + v.val
  · have hw := (word_eq_iff w t v.val ht v.isLt).2 h
    refine Eq.trans ?_ (if_pos h).symm
    rw [← hw]
    simp [IntOp.cmpi]
  · have hw : ¬ w = _ := fun e => h ((word_eq_iff w t v.val ht v.isLt).1 e)
    refine Eq.trans ?_ (if_neg h).symm
    have hb : (w == BitVec.ofNat 32 v.val + BitVec.ofNat 32 t * 2048#32) = false := beq_eq_false_iff_ne.mpr hw
    simp [IntOp.cmpi, hb]

/-- The broadcast table column at (l, v) is the table's word at slot l. -/
private theorem pay12_apply (x6 : Vec Ideal S256x1 .i32) (l : Fin 256) (v : Fin 2048) :
    k0_pay12 (F := Ideal) x6 (ix2 l v) = x6 (ix2 l 0) := by
  unfold k0_pay12
  refine broadcastTo_apply _ _ (ix2 l v) (ix2 l 0) ?_
  intro a
  match a with
  | ⟨0, _⟩ => rfl
  | ⟨1, _⟩ => rfl

/-- The row-number word at (l, v): the lane coordinate plus 2048 times the point's coordinate. -/
private theorem pay11_apply (i : grid0.Coords) (l : Fin 256) (v : Fin 2048) :
    k0_pay11 i (ix2 l v) = BitVec.ofNat 32 v.val + BitVec.ofNat 32 (i 0).val * 2048#32 := by
  unfold k0_pay11
  show IntOp.addi (iota .tc S256x2048 32 [1] iota_S256x2048_d1_w32 (ix2 l v))
    (Scalar.muli (BitVec.ofNat 32 (i 0).val) 2048#32) = _
  rw [iota_single_apply]
  rfl

theorem sel_apply (i : grid0.Coords) (x6 : Vec Ideal S256x1 .i32) (l : Fin 256) (v : Fin 2048) :
    k0_pay1 (F := Ideal) (k0_pay11 i) (k0_pay12 (F := Ideal) x6) (ix2 l v) = sel (x6 (ix2 l 0)) (i 0).val v := by
  have ht : (i 0).val < 53 := (i 0).isLt
  unfold k0_pay1
  refine (truncf_apply (ψ := .bf16) _ bitsLt_bf16_f32 _).trans ?_
  refine (sitofp_apply _ _).trans ?_
  rw [extui_apply]
  show FloatOps.sitofp .f32 ((IntOp.cmpi .eq (k0_pay12 x6 (ix2 l v)) (k0_pay11 i (ix2 l v))).setWidth 32) = _
  rw [pay12_apply, pay11_apply]
  exact sel_word _ _ v ht

/-- One accumulator step at (l, b), for any tile whose entries are known: the accumulator plus the sum over the tile's
    rows of the selection entry times the tile's entry. -/
private theorem step_core (g : FVec Ideal S2048x64 .f32) (i : grid0.Coords) (x6 : Vec Ideal S256x1 .i32)
    (acc : Vec Ideal S256x64 .f32) (l : Fin 256) (b : Fin 64) (G : Fin 2048 → Fin 64 → EReal)
    (hG : ∀ v b, g (ix2 v b) = G v b) :
    shapeCast S256x64
        (addf acc
          (matmul dot_S256x2048_S2048x64_S256x64_1_0_0_1_n_n none
            (k0_pay1 (F := Ideal) (k0_pay11 i) (k0_pay12 (F := Ideal) x6)) (truncf .bf16 g bitsLt_bf16_f32)
            (constant S256x64 .f32 0x00000000#32)))
        shapeCasts_S256x64_S256x64 (ix2 l b)
      = acc (ix2 l b) + ∑ v : Fin 2048, sel (x6 (ix2 l 0)) (i 0).val v * G v b := by
  rw [shapeCast_self]
  refine (addf_apply _ _ _).trans ?_
  refine congrArg (acc (ix2 l b) + ·) ?_
  refine (PlainDot.matmul_zero_plain _ ⟨rfl, rfl, rfl, rfl, rfl, rfl⟩ none _ _ l b).trans ?_
  refine Finset.sum_congr rfl fun v _ => ?_
  refine congrArg₂ (· * ·) (sel_apply i x6 l v) ?_
  exact (truncf_apply (ψ := .bf16) _ bitsLt_bf16_f32 _).trans (hG v b)

theorem step0_apply (i : grid0.Coords) (x0 : Vec Ideal S2048x80 .f32) (x1 : Vec Ideal S2048x64 .f32)
    (x2 : Vec Ideal S64x80 .f32) (x3 : Vec Ideal S64x64 .f32) (x6 : Vec Ideal S256x1 .i32)
    (acc : Vec Ideal S256x64 .f32) (l : Fin 256) (b : Fin 64) :
    k0_pay2 (F := Ideal) (k0_pay9 x0 x1 x2 x3) (k0_pay11 i) (k0_pay12 (F := Ideal) x6) acc (ix2 l b)
      = acc (ix2 l b) + ∑ v : Fin 2048, sel (x6 (ix2 l 0)) (i 0).val v * tileGeo x0 x1 x2 x3 v b := by
  unfold k0_pay2
  exact step_core (k0_pay9 x0 x1 x2 x3) i x6 acc l b (tileGeo x0 x1 x2 x3) (geo0_apply x0 x1 x2 x3)

theorem step1_apply (i : grid0.Coords) (x0 : Vec Ideal S2048x80 .f32) (x1 : Vec Ideal S2048x64 .f32)
    (x4 : Vec Ideal S64x80 .f32) (x5 : Vec Ideal S64x64 .f32) (x6 : Vec Ideal S256x1 .i32)
    (acc : Vec Ideal S256x64 .f32) (l : Fin 256) (b : Fin 64) :
    k0_pay3 (F := Ideal) (k0_pay10 x0 x1 x4 x5) (k0_pay11 i) (k0_pay12 (F := Ideal) x6) acc (ix2 l b)
      = acc (ix2 l b) + ∑ v : Fin 2048, sel (x6 (ix2 l 0)) (i 0).val v * tileGeo x0 x1 x4 x5 v b := by
  unfold k0_pay3
  exact step_core (k0_pay10 x0 x1 x4 x5) i x6 acc l b (tileGeo x0 x1 x4 x5) (geo1_apply x0 x1 x4 x5)

theorem zeros0_apply (y : S256x64.Idx) : k0_pay5 (F := Ideal) y = 0 := by
  unfold k0_pay5
  rw [shapeCast_self]
  exact Ideal.ofBits_zero_f32

theorem zeros1_apply (y : S256x64.Idx) : k0_pay6 (F := Ideal) y = 0 := by
  unfold k0_pay6
  rw [shapeCast_self]
  exact Ideal.ofBits_zero_f32

/-- A length-256 vector viewed as a 256×1 block reads, at (l, c), the vector at l. -/
private theorem cast256_apply (x : S256.Idx → EReal) (j : S256x1.Idx) :
    shapeCast S256x1 x shapeCasts_S256_S256x1 j = x (ix1 (j 0)) := by
  refine shapeCast_apply x _ j (ix1 (j 0)) ?_
  rw [Shape.rowMajor_val_one, Shape.rowMajor_val_two]
  have h1 : (j 1).val < 1 := (j 1).isLt
  show (j 0).val = (j 0).val * 1 + (j 1).val
  omega

/-- The sum over the batch axis of a 256×64 block, at slot l. -/
private theorem red1_apply (x : FVec Ideal S256x64 .f32) (j : S256.Idx) :
    multiReduction .add [1] S256 x 0x00000000#32 reduces_S256x64_S256 (.inl rfl) rfl j
      = ∑ b : Fin 64, x (ix2 (j 0) b) := by
  refine (Ideal.multiReduction_add_single (φ := .f32) x _ reduces_S256x64_S256 (.inl rfl) rfl j).trans ?_
  refine Finset.sum_congr rfl fun b _ => congrArg x ?_
  funext a
  match a with
  | ⟨0, _⟩ => exact Fin.ext rfl
  | ⟨1, _⟩ => exact Fin.ext rfl

/-- The sum over the slot axis of a 256×1 block. -/
private theorem red0_apply (x : FVec Ideal S256x1 .f32) (j : S1.Idx) :
    multiReduction .add [0] S1 x 0x00000000#32 reduces_S256x1_S1 (.inl rfl) rfl j
      = ∑ l : Fin 256, x (ix2 l 0) := by
  refine (Ideal.multiReduction_add_single (φ := .f32) x _ reduces_S256x1_S1 (.inl rfl) rfl j).trans ?_
  refine Finset.sum_congr rfl fun l _ => congrArg x ?_
  funext a
  match a with
  | ⟨0, _⟩ => exact Fin.ext rfl
  | ⟨1, _⟩ => exact Subsingleton.elim (α := Fin 1) _ _

theorem finish_apply (s0 s1 : Vec Ideal S256x64 .f32) (x7 : Vec Ideal S256x1 .f32) (y : S1x1.Idx) :
    k0_pay4 (F := Ideal) s0 s1 x7 y
      = Ideal.div (∑ l : Fin 256, ∑ b : Fin 64,
            x7 (ix2 l 0) * ((s0 (ix2 l b) - s1 (ix2 l b)) * (s0 (ix2 l b) - s1 (ix2 l b))))
          (Ideal.ofBits .f32 0x42880000#32) := by
  unfold k0_pay4
  refine (divf_apply _ _ _).trans ?_
  refine congrArg₂ Ideal.div ?_ rfl
  refine (shapeCast_addUnit_apply (n := 1) ![1] _ shapeCasts_S1_S1x1 y).trans ?_
  refine (red0_apply _ _).trans ?_
  refine Finset.sum_congr rfl fun l _ => ?_
  refine (cast256_apply _ _).trans ?_
  refine (red1_apply _ _).trans ?_
  refine Finset.sum_congr rfl fun b _ => ?_
  refine (mulf_apply _ _ _).trans ?_
  refine congrArg₂ (· * ·) ?_ rfl
  refine broadcastTo_apply _ _ _ (ix2 l 0) ?_
  intro a
  match a with
  | ⟨0, _⟩ => rfl
  | ⟨1, _⟩ => rfl

end Cert.GeoLoss.K

end
-- ==== Proof.KHost.lean ====
/-
  What the kernel's region finds in its arrays, and what each grid point's blocks are.

  Before the region the host pads the two bases with 1417 rows of zeros (to 53 tiles of 2048 rows), drops the unit
  axis of the four coefficient arrays, and writes the two constant tables.  At grid point t the identity basis'
  block is rows 2048·t … 2048·t + 2047 of the padded identity basis, likewise the expression basis'; the other six
  windows hold their whole arrays at every point.  A row below 107127 of a padded basis is the basis' own row.
-/
import proofs.«104038_j4947802325291_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx
import Idealize.ShloMosaic.Lib.Tactic

set_option maxRecDepth 16384

noncomputable section

open Idealize.ShloMosaic Idealize.ShloMosaic.TcCoe Idealize.SL.Sem

namespace Cert.GeoLoss.K

open Cert.KernelIdeal Cert.KernelIdeal.Gen Idealize.ShloMosaic.ValueIdx Idealize.ShloMosaic.StableHlo

variable {F : FTy → Type} [FloatOps F]
variable (m : (ℓ : Loc nD τ sig) → Buf (Elt F) ℓ)

/-- The padded identity basis. -/
theorem V_v0 (c : Dev nD) :
    (V m c main_v0 : Vec F S108544x80 .f32)
      = pad S108544x80 ![0, 0] ![1417, 0] ![0, 0] (m ((c : Thread nD τ).loc main_arg4))
          (sitofp (F := F) .f32 (constantI S_ 32 0#32)) pads_S107127x80_S108544x80_014170_000 h_S_ := by
  dsimp only [V, V0]
  simp only [hostOps0, hostOps0_1, hostOps0_2, hostOps0_3, hostOps0_4, List.flatten_cons, List.flatten_nil, List.append_nil, List.cons_append, List.nil_append]
  after_results
  rfl

/-- The padded expression basis. -/
theorem V_v1 (c : Dev nD) :
    (V m c main_v1 : Vec F S108544x64 .f32)
      = pad S108544x64 ![0, 0] ![1417, 0] ![0, 0] (m ((c : Thread nD τ).loc main_arg5))
          (sitofp (F := F) .f32 (constantI S_ 32 0#32)) pads_S107127x64_S108544x64_014170_000 h_S_ := by
  dsimp only [V, V0]
  simp only [hostOps0, hostOps0_1, hostOps0_2, hostOps0_3, hostOps0_4, List.flatten_cons, List.flatten_nil, List.append_nil, List.cons_append, List.nil_append]
  after_results
  rfl

/-- The four coefficient arrays without their unit axis. -/
theorem V_v2 (c : Dev nD) :
    (V m c main_v2 : Vec F S64x80 .f32) = shapeCast S64x80 (m ((c : Thread nD τ).loc main_arg0)) shapeCasts_S64x80x1_S64x80 := by
  dsimp only [V, V0]
  simp only [hostOps0, hostOps0_1, hostOps0_2, hostOps0_3, hostOps0_4, List.flatten_cons, List.flatten_nil, List.append_nil, List.cons_append, List.nil_append]
  after_results
  rfl
theorem V_v3 (c : Dev nD) :
    (V m c main_v3 : Vec F S64x64 .f32) = shapeCast S64x64 (m ((c : Thread nD τ).loc main_arg1)) shapeCasts_S64x64x1_S64x64 := by
  dsimp only [V, V0]
  simp only [hostOps0, hostOps0_1, hostOps0_2, hostOps0_3, hostOps0_4, List.flatten_cons, List.flatten_nil, List.append_nil, List.cons_append, List.nil_append]
  after_results
  rfl
theorem V_v4 (c : Dev nD) :
    (V m c main_v4 : Vec F S64x80 .f32) = shapeCast S64x80 (m ((c : Thread nD τ).loc main_arg2)) shapeCasts_S64x80x1_S64x80 := by
  dsimp only [V, V0]
  simp only [hostOps0, hostOps0_1, hostOps0_2, hostOps0_3, hostOps0_4, List.flatten_cons, List.flatten_nil, List.append_nil, List.cons_append, List.nil_append]
  after_results
  rfl
theorem V_v5 (c : Dev nD) :
    (V m c main_v5 : Vec F S64x64 .f32) = shapeCast S64x64 (m ((c : Thread nD τ).loc main_arg3)) shapeCasts_S64x64x1_S64x64 := by
  dsimp only [V, V0]
  simp only [hostOps0, hostOps0_1, hostOps0_2, hostOps0_3, hostOps0_4, List.flatten_cons, List.flatten_nil, List.append_nil, List.cons_append, List.nil_append]
  after_results
  rfl

/-- The two constant tables. -/
theorem V_c (c : Dev nD) : (V m c main_c : Vec F S256x1 .i32) = fun i => lit0 (S256x1.rowMajor i) := by
  dsimp only [V, V0]
  simp only [hostOps0, hostOps0_1, hostOps0_2, hostOps0_3, hostOps0_4, List.flatten_cons, List.flatten_nil, List.append_nil, List.cons_append, List.nil_append]
  after_results
  rfl
theorem V_cst (c : Dev nD) :
    (V m c main_cst : Vec F S256x1 .f32) = fun i => FloatOps.ofBits .f32 (lit1 (S256x1.rowMajor i)) := by
  dsimp only [V, V0]
  simp only [hostOps0, hostOps0_1, hostOps0_2, hostOps0_3, hostOps0_4, List.flatten_cons, List.flatten_nil, List.append_nil, List.cons_append, List.nil_append]
  after_results
  rfl

/-- A grid point's one coordinate is its number. -/
theorem coord_val : ∀ t : Fin cfg0.N, (grid0.coords t 0).val = t.val :=
  (by decide +kernel : ∀ t : Fin grid0.N, (grid0.coords t 0).val = t.val)

/-- The bases' windows walk the row tiles; their column block never moves. -/
theorem idx_w0 : ∀ t : Fin cfg0.N, win0_0.index t 0 = t.val ∧ win0_0.index t 1 = 0 :=
  (by decide +kernel : ∀ t : Fin grid0.N, win0_0.index t 0 = t.val ∧ win0_0.index t 1 = 0)
theorem idx_w1 : ∀ t : Fin cfg0.N, win0_1.index t 0 = t.val ∧ win0_1.index t 1 = 0 :=
  (by decide +kernel : ∀ t : Fin grid0.N, win0_1.index t 0 = t.val ∧ win0_1.index t 1 = 0)

/-- Tile row v of the identity basis' block at point t is row 2048·t + v of the basis, when that is one of its rows. -/
theorem blk0_apply (c : Dev nD) (t : Fin cfg0.N) (v : Fin 2048) (k : Fin 80) (hr : 2048 * t.val + v.val < 107127) :
    (iblk m c 0 t : Vec F S2048x80 .f32) (ix2 v k)
      = m ((c : Thread nD τ).loc main_arg4) (ix2 ⟨2048 * t.val + v.val, hr⟩ k) := by
  unfold iblk
  rw [View.read_apply]
  show (V m c main_v0 : Vec F S108544x80 .f32) _ = _
  rw [V_v0]
  refine pad_apply_of_inside _ _ _ _ _ _ _ _ (ix2 ⟨2048 * t.val + v.val, hr⟩ k) (fun a => ?_)
  match a with
  | ⟨0, _⟩ =>
    show win0_0.index t 0 * 2048 + 1 * v.val = 0 + (2048 * t.val + v.val) * (0 + 1)
    rw [(idx_w0 t).1]; omega
  | ⟨1, _⟩ =>
    show win0_0.index t 1 * 80 + 1 * k.val = 0 + k.val * (0 + 1)
    rw [(idx_w0 t).2]; omega

/-- Tile row v of the expression basis' block at point t is row 2048·t + v of the basis, when that is one of its rows. -/
theorem blk1_apply (c : Dev nD) (t : Fin cfg0.N) (v : Fin 2048) (k : Fin 64) (hr : 2048 * t.val + v.val < 107127) :
    (iblk m c 1 t : Vec F S2048x64 .f32) (ix2 v k)
      = m ((c : Thread nD τ).loc main_arg5) (ix2 ⟨2048 * t.val + v.val, hr⟩ k) := by
  unfold iblk
  rw [View.read_apply]
  show (V m c main_v1 : Vec F S108544x64 .f32) _ = _
  rw [V_v1]
  refine pad_apply_of_inside _ _ _ _ _ _ _ _ (ix2 ⟨2048 * t.val + v.val, hr⟩ k) (fun a => ?_)
  match a with
  | ⟨0, _⟩ =>
    show win0_1.index t 0 * 2048 + 1 * v.val = 0 + (2048 * t.val + v.val) * (0 + 1)
    rw [(idx_w1 t).1]; omega
  | ⟨1, _⟩ =>
    show win0_1.index t 1 * 64 + 1 * k.val = 0 + k.val * (0 + 1)
    rw [(idx_w1 t).2]; omega

theorem idx_w2 : ∀ t : Fin cfg0.N, win0_2.index t 0 = 0 ∧ win0_2.index t 1 = 0 :=
  (by decide +kernel : ∀ t : Fin grid0.N, win0_2.index t 0 = 0 ∧ win0_2.index t 1 = 0)

/-- The first identity coefficients' block is the whole array, at every point. -/
theorem blk2_apply (c : Dev nD) (t : Fin cfg0.N) (b : Fin 64) (k : Fin 80) :
    (iblk m c 2 t : Vec F S64x80 .f32) (ix2 b k) = m ((c : Thread nD τ).loc main_arg0) (ix3 b k 0) := by
  unfold iblk
  rw [View.read_apply]
  show (V m c main_v2 : Vec F S64x80 .f32) _ = _
  rw [V_v2]
  refine shapeCast_apply _ _ _ (ix3 b k 0) ?_
  rw [Shape.rowMajor_val_three, Shape.rowMajor_val_two]
  show (b.val * 80 + k.val) * 1 + 0 = (win0_2.index t 0 * 64 + 1 * b.val) * 80 + (win0_2.index t 1 * 80 + 1 * k.val)
  rw [(idx_w2 t).1, (idx_w2 t).2]; omega

theorem idx_w3 : ∀ t : Fin cfg0.N, win0_3.index t 0 = 0 ∧ win0_3.index t 1 = 0 :=
  (by decide +kernel : ∀ t : Fin grid0.N, win0_3.index t 0 = 0 ∧ win0_3.index t 1 = 0)

/-- The first expression coefficients' block is the whole array, at every point. -/
theorem blk3_apply (c : Dev nD) (t : Fin cfg0.N) (b : Fin 64) (k : Fin 64) :
    (iblk m c 3 t : Vec F S64x64 .f32) (ix2 b k) = m ((c : Thread nD τ).loc main_arg1) (ix3 b k 0) := by
  unfold iblk
  rw [View.read_apply]
  show (V m c main_v3 : Vec F S64x64 .f32) _ = _
  rw [V_v3]
  refine shapeCast_apply _ _ _ (ix3 b k 0) ?_
  rw [Shape.rowMajor_val_three, Shape.rowMajor_val_two]
  show (b.val * 64 + k.val) * 1 + 0 = (win0_3.index t 0 * 64 + 1 * b.val) * 64 + (win0_3.index t 1 * 64 + 1 * k.val)
  rw [(idx_w3 t).1, (idx_w3 t).2]; omega

theorem idx_w4 : ∀ t : Fin cfg0.N, win0_4.index t 0 = 0 ∧ win0_4.index t 1 = 0 :=
  (by decide +kernel : ∀ t : Fin grid0.N, win0_4.index t 0 = 0 ∧ win0_4.index t 1 = 0)

/-- The second identity coefficients' block is the whole array, at every point. -/
theorem blk4_apply (c : Dev nD) (t : Fin cfg0.N) (b : Fin 64) (k : Fin 80) :
    (iblk m c 4 t : Vec F S64x80 .f32) (ix2 b k) = m ((c : Thread nD τ).loc main_arg2) (ix3 b k 0) := by
  unfold iblk
  rw [View.read_apply]
  show (V m c main_v4 : Vec F S64x80 .f32) _ = _
  rw [V_v4]
  refine shapeCast_apply _ _ _ (ix3 b k 0) ?_
  rw [Shape.rowMajor_val_three, Shape.rowMajor_val_two]
  show (b.val * 80 + k.val) * 1 + 0 = (win0_4.index t 0 * 64 + 1 * b.val) * 80 + (win0_4.index t 1 * 80 + 1 * k.val)
  rw [(idx_w4 t).1, (idx_w4 t).2]; omega

theorem idx_w5 : ∀ t : Fin cfg0.N, win0_5.index t 0 = 0 ∧ win0_5.index t 1 = 0 :=
  (by decide +kernel : ∀ t : Fin grid0.N, win0_5.index t 0 = 0 ∧ win0_5.index t 1 = 0)

/-- The second expression coefficients' block is the whole array, at every point. -/
theorem blk5_apply (c : Dev nD) (t : Fin cfg0.N) (b : Fin 64) (k : Fin 64) :
    (iblk m c 5 t : Vec F S64x64 .f32) (ix2 b k) = m ((c : Thread nD τ).loc main_arg3) (ix3 b k 0) := by
  unfold iblk
  rw [View.read_apply]
  show (V m c main_v5 : Vec F S64x64 .f32) _ = _
  rw [V_v5]
  refine shapeCast_apply _ _ _ (ix3 b k 0) ?_
  rw [Shape.rowMajor_val_three, Shape.rowMajor_val_two]
  show (b.val * 64 + k.val) * 1 + 0 = (win0_5.index t 0 * 64 + 1 * b.val) * 64 + (win0_5.index t 1 * 64 + 1 * k.val)
  rw [(idx_w5 t).1, (idx_w5 t).2]; omega

theorem idx_w6 : ∀ t : Fin cfg0.N, win0_6.index t 0 = 0 ∧ win0_6.index t 1 = 0 :=
  (by decide +kernel : ∀ t : Fin grid0.N, win0_6.index t 0 = 0 ∧ win0_6.index t 1 = 0)
theorem idx_w7 : ∀ t : Fin cfg0.N, win0_7.index t 0 = 0 ∧ win0_7.index t 1 = 0 :=
  (by decide +kernel : ∀ t : Fin grid0.N, win0_7.index t 0 = 0 ∧ win0_7.index t 1 = 0)

/-- The row table's block is the whole table, at every point: slot l holds the table's word l. -/
theorem blk6_apply (c : Dev nD) (t : Fin cfg0.N) (l : Fin 256) :
    (iblk m c 6 t : Vec F S256x1 .i32) (ix2 l 0) = lit0 l := by
  unfold iblk
  rw [View.read_apply]
  show (V m c main_c : Vec F S256x1 .i32) _ = _
  rw [V_c]
  show lit0 (S256x1.rowMajor _) = lit0 l
  refine congrArg lit0 (Fin.ext ?_)
  rw [Shape.rowMajor_val_two]
  show (win0_6.index t 0 * 256 + 1 * l.val) * 1 + (win0_6.index t 1 * 1 + 1 * 0) = l.val
  rw [(idx_w6 t).1, (idx_w6 t).2]; omega

/-- The weight table's block is the whole table, at every point: slot l holds the float its word l denotes. -/
theorem blk7_apply (c : Dev nD) (t : Fin cfg0.N) (l : Fin 256) :
    (iblk m c 7 t : Vec F S256x1 .f32) (ix2 l 0) = FloatOps.ofBits .f32 (lit1 l) := by
  unfold iblk
  rw [View.read_apply]
  show (V m c main_cst : Vec F S256x1 .f32) _ = _
  rw [V_cst]
  show FloatOps.ofBits .f32 (lit1 (S256x1.rowMajor _)) = FloatOps.ofBits .f32 (lit1 l)
  refine congrArg (fun n => FloatOps.ofBits .f32 (lit1 n)) (Fin.ext ?_)
  rw [Shape.rowMajor_val_two]
  show (win0_7.index t 0 * 256 + 1 * l.val) * 1 + (win0_7.index t 1 * 1 + 1 * 0) = l.val
  rw [(idx_w7 t).1, (idx_w7 t).2]; omega

end Cert.GeoLoss.K

end
-- ==== Proof.KAcc.lean ====
/-
  The two accumulators after every grid point, and the result the last point stores.

  Point s adds to accumulator 0, at slot l and batch element b, the sum over the tile's rows v of the selection entry
  (one where the slot's table word is the row number 2048·s + v) times the tile's first geometry at (v, b); and to
  accumulator 1 the same with the second geometry.  The first point starts both from zero.  So after point n each
  accumulator holds the sum of the addends of points 0 … n: by induction on the point, never by listing the 53.
-/
import proofs.«104038_j4947802325291_1_alg».proof.Proof.KPieces
import proofs.«104038_j4947802325291_1_alg».proof.Proof.KStep
import proofs.«104038_j4947802325291_1_alg».proof.Proof.KHost

set_option maxRecDepth 16384

noncomputable section

open scoped BigOperators
open Idealize.ShloMosaic Idealize.ShloMosaic.TcCoe Idealize.SL.Sem

namespace Cert.GeoLoss.K

open Cert.KernelIdeal Cert.KernelIdeal.Gen Idealize.ShloMosaic.ValueIdx

variable (m : (ℓ : Loc nD τ sig) → Buf (Elt Ideal) ℓ)

/-- Point s's addend to accumulator 0 at slot l and batch element b. -/
def add0 (c : Dev nD) (s : ℕ) (l : Fin 256) (b : Fin 64) : EReal :=
  if h : s < cfg0.N then
    ∑ v : Fin 2048, sel (lit0 l) s v * tileGeo (iblk m c 0 ⟨s, h⟩) (iblk m c 1 ⟨s, h⟩) (iblk m c 2 ⟨s, h⟩) (iblk m c 3 ⟨s, h⟩) v b
  else 0

/-- Point s's addend to accumulator 1 at slot l and batch element b. -/
def add1 (c : Dev nD) (s : ℕ) (l : Fin 256) (b : Fin 64) : EReal :=
  if h : s < cfg0.N then
    ∑ v : Fin 2048, sel (lit0 l) s v * tileGeo (iblk m c 0 ⟨s, h⟩) (iblk m c 1 ⟨s, h⟩) (iblk m c 4 ⟨s, h⟩) (iblk m c 5 ⟨s, h⟩) v b
  else 0

/-- One step of accumulator 0 at point t, entry by entry, over whatever it held. -/
theorem step0_at (c : Dev nD) (t : Fin cfg0.N) (acc : Vec Ideal S256x64 .f32) (l : Fin 256) (b : Fin 64) :
    step0 (grid0.coords t) (iblk m c 0 t) (iblk m c 1 t) (iblk m c 2 t) (iblk m c 3 t) (iblk m c 6 t) acc (ix2 l b)
      = acc (ix2 l b) + add0 m c t.val l b := by
  refine (step0_apply (grid0.coords t) (iblk m c 0 t) (iblk m c 1 t) (iblk m c 2 t) (iblk m c 3 t) (iblk m c 6 t) acc l b).trans ?_
  rw [blk6_apply m c t l, coord_val t]
  unfold add0
  rw [dif_pos t.isLt]

/-- One step of accumulator 1 at point t, entry by entry, over whatever it held. -/
theorem step1_at (c : Dev nD) (t : Fin cfg0.N) (acc : Vec Ideal S256x64 .f32) (l : Fin 256) (b : Fin 64) :
    step1 (grid0.coords t) (iblk m c 0 t) (iblk m c 1 t) (iblk m c 4 t) (iblk m c 5 t) (iblk m c 6 t) acc (ix2 l b)
      = acc (ix2 l b) + add1 m c t.val l b := by
  refine (step1_apply (grid0.coords t) (iblk m c 0 t) (iblk m c 1 t) (iblk m c 4 t) (iblk m c 5 t) (iblk m c 6 t) acc l b).trans ?_
  rw [blk6_apply m c t l, coord_val t]
  unfold add1
  rw [dif_pos t.isLt]

/-- After point n the two accumulators hold the sums of the addends of points 0 … n. -/
theorem accs_eq (c : Dev nD) : ∀ (n : ℕ) (hn : n < cfg0.N) (l : Fin 256) (b : Fin 64),
    (outsAt0 m c n hn).2.1 (ix2 l b) = ∑ s ∈ Finset.range (n + 1), add0 m c s l b
    ∧ (outsAt0 m c n hn).2.2 (ix2 l b) = ∑ s ∈ Finset.range (n + 1), add1 m c s l b
  | 0, hn, l, b => by
    have hA := outsAt0_A m c ⟨0, hn⟩ (Nat.zero_mod _) (by show ¬(0 : ℕ) % 53 = 52; decide)
    constructor
    · rw [show outsAt0 m c 0 hn = _ from hA]
      dsimp only
      rw [acc0_A, step0_at m c ⟨0, hn⟩ _ l b, zeros0_apply, zero_add, Finset.sum_range_one]
    · rw [show outsAt0 m c 0 hn = _ from hA]
      dsimp only
      rw [acc1_A, step1_at m c ⟨0, hn⟩ _ l b, zeros1_apply, zero_add, Finset.sum_range_one]
  | n + 1, hn, l, b => by
    have hN : cfg0.N = 53 := N_0
    have ih := accs_eq c n (Nat.lt_of_succ_lt hn) l b
    have h0 : ¬(n + 1) % 53 = 0 := by omega
    by_cases h1 : (n + 1) % 53 = 52
    · have hC := outsAt0_C m c ⟨n + 1, hn⟩ h0 h1
      constructor
      · rw [show outsAt0 m c (n + 1) hn = _ from hC]
        dsimp only
        rw [acc0_C, step0_at m c ⟨n + 1, hn⟩ _ l b, Finset.sum_range_succ _ (n + 1)]
        exact congrArg (· + add0 m c (n + 1) l b) ih.1
      · rw [show outsAt0 m c (n + 1) hn = _ from hC]
        dsimp only
        rw [acc1_C, step1_at m c ⟨n + 1, hn⟩ _ l b, Finset.sum_range_succ _ (n + 1)]
        exact congrArg (· + add1 m c (n + 1) l b) ih.2
    · have hB := outsAt0_B m c ⟨n + 1, hn⟩ h0 h1
      constructor
      · rw [show outsAt0 m c (n + 1) hn = _ from hB]
        dsimp only
        rw [acc0_B, step0_at m c ⟨n + 1, hn⟩ _ l b, Finset.sum_range_succ _ (n + 1)]
        exact congrArg (· + add0 m c (n + 1) l b) ih.1
      · rw [show outsAt0 m c (n + 1) hn = _ from hB]
        dsimp only
        rw [acc1_B, step1_at m c ⟨n + 1, hn⟩ _ l b, Finset.sum_range_succ _ (n + 1)]
        exact congrArg (· + add1 m c (n + 1) l b) ih.2

/-- The last point stores the finish of the two accumulators as it leaves them, with the weight table. -/
theorem out_last (c : Dev nD) (h52 : 52 < cfg0.N) :
    (outsAt0 m c 52 h52).1
      = finish (outsAt0 m c 52 h52).2.1 (outsAt0 m c 52 h52).2.2 (iblk m c 7 ⟨52, h52⟩) := by
  have hC := outsAt0_C m c ⟨52, h52⟩ (by show ¬(52 : ℕ) % 53 = 0; decide) (by show (52 : ℕ) % 53 = 52; decide)
  rw [show outsAt0 m c 52 h52 = _ from hC]
  dsimp only
  rw [out_C, acc0_C, acc1_C]

end Cert.GeoLoss.K

end
-- ==== Proof.KFinal.lean ====
/-
  The kernel program's run, read: what its result buffer holds.

  The output window is one 1 × 1 block, written back once, after the last grid point; that block is the whole output
  array, so after the region the array holds what the last point stored.  The one host operation after the region
  drops both unit axes: the program's result, a scalar, is that one entry.  The argument arrays end as they began.
-/
import proofs.«104038_j4947802325291_1_alg».proof.Proof.KAcc
import Idealize.ShloMosaic.Lib.StableHlo.Run

set_option maxRecDepth 16384

noncomputable section

open Idealize.ShloMosaic Idealize.ShloMosaic.TcCoe Idealize.SL.Sem
open Idealize.ShloMosaic.Pipeline (Dat)

namespace Cert.GeoLoss.K

open Cert.KernelIdeal Cert.KernelIdeal.Gen Idealize.ShloMosaic.ValueIdx Idealize.ShloMosaic.StableHlo

variable (m : (ℓ : Loc nD τ sig) → Buf (Elt Ideal) ℓ) (ρ : Dev nD → PrngReg)

theorem h52 : 52 < cfg0.N := by rw [show cfg0.N = 53 from N_0]; decide

/-- The last grid point. -/
abbrev tLast : Fin cfg0.N := ⟨52, h52⟩

/-- What the last point stores, as contents of the 1 × 1 output array. -/
abbrev out11 (c : Dev nD) : Buf (Elt Ideal) ((c : Thread nD τ).loc main_v6) := (outsAt0 m c 52 h52).1

theorem idx_w8 : ∀ t : Fin cfg0.N, win0_8.index t 0 = 0 ∧ win0_8.index t 1 = 0 :=
  (by decide +kernel : ∀ t : Fin grid0.N, win0_8.index t 0 = 0 ∧ win0_8.index t 1 = 0)

/-- The output window's block at the last point sits at offsets zero of the 1 × 1 array, so reading any contents
    of the array through it gives those contents back. -/
theorem read_whole8 (c : Dev nD) (X : Buf (Elt Ideal) ((c : Thread nD τ).loc main_v6)) :
    ((cfg0.win 8).blk tLast).view.read (Elt Ideal) X = X := by
  have hz' : (fun a => win0_8.index tLast a * main_v6.ty.shape.size a) = fun _ => 0 :=
    funext fun a => by
      match a with
      | ⟨0, _⟩ => show win0_8.index tLast 0 * 1 = 0; rw [(idx_w8 tLast).1]
      | ⟨1, _⟩ => show win0_8.index tLast 1 * 1 = 0; rw [(idx_w8 tLast).2]
  exact Memref.read_access_unit_zero (Elt Ideal) main_v6 hz' (fun a => by rw [congrFun hz' a]; simp) X

/-- The one write-back, at the last point, writes what that point stored. -/
theorem flushed8 (c : Dev nD) (t : Fin cfg0.N) (hf : (cfg0.win 8).flush t = true) :
    (dats m 0 c).flushed 8 t = ((cfg0.win 8).blk t).view.read (Elt Ideal) (out11 m c) := by
  have hN : cfg0.N = 53 := N_0
  have h : t.val = 52 := by have := (flush0_8 t).mp hf; have := t.isLt; omega
  obtain rfl : t = tLast := Fin.ext h
  show (cfg0.win 8).cut (grid0.coords tLast) ((dats m 0 c).after 8 tLast) = _
  rw [after0_8]
  show (cfg0.win 8).cut (grid0.coords tLast) (outsAt0 m c tLast.val tLast.isLt).1
      = ((cfg0.win 8).blk tLast).view.read (Elt Ideal) (outsAt0 m c tLast.val tLast.isLt).1
  generalize (outsAt0 m c tLast.val tLast.isLt).1 = X
  exact (read_whole8 c X).symm

/-- So the output array ends holding what the last point stored: the last point's block of the final array is that
    point's block of the stored contents, and each is the whole array. -/
theorem final8 (c : Dev nD) : (dats m 0 c).arrAt 8 cfg0.N = out11 m c :=
  (read_whole8 c _).symm.trans
    (((dats m 0 c).read_blk_arrAt 8 (out11 m c) (flushed8 m c) tLast ((flush0_8 tLast).mpr rfl)).trans
      (read_whole8 c (out11 m c)))

/-- The program's result: the output array with both unit axes dropped. -/
abbrev result (c : Dev nD) : Buf (Elt Ideal) ((c : Thread nD τ).loc main_v7) :=
  shapeCast S_ (out11 m c) shapeCasts_S1x1_S_

/-- The host operation after the region leaves the result buffer at that. -/
theorem tail_v7 (c : Dev nD) :
    Pipeline.afterTail₀ cfgs (dats m) 0 (V0 m) [hostOps1] c main_v7 = result m c := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v6) = out11 m c :=
    (Pipeline.withArrays_arr spec0 launch0.win.arr_inj c _ _ 8).trans (final8 m c)
  rw [e]
  rfl

/-- On every device, from any memory with zero counters: every weakly fair execution of the kernel program
    terminates with the result buffer at `result` and the argument arrays unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.GeoLoss.K

end
-- ==== Proof.Spec.lean ====
/-
  The landmark loss as one function of the six argument arrays, over the extended reals.

  A batch element b has coefficient rows a(b,·) (80 entries) and d(b,·) (64 entries); the two bases I (107127 × 80)
  and E (107127 × 64) give it the geometry  geo b v = Σ_k a(b,k)·I(v,k) + Σ_k d(b,k)·E(v,k)  at basis row v.  Rows
  come in triples: landmark n's coordinate c is row 3n + c.  The loss compares two coefficient sets on 68 landmarks:
  the sum over b, the landmark j and the coordinate c of  W j · (geo b (3·lm j + c) − geo' b (3·lm j + c))², divided
  by 68 afterwards (the division is the same operation on both programs and is never opened).

  Two arrangements of that sum meet here.  One walks the 204 landmark rows first and the batch second, over a table
  of 256 row slots whose last 52 carry weight zero; and it finds each row by a sum over 53 tiles of 2048 rows of
  indicator-weighted terms, of which exactly one is not zero.  The other is the triple sum as written.
-/
import Idealize.ShloMosaic.PureOps.Ideal.Laws
import Idealize.ShloMosaic.Lib.ValueIdx

noncomputable section

open scoped BigOperators

namespace Cert.GeoLoss
open Idealize.ShloMosaic Idealize.ShloMosaic.ValueIdx

abbrev ShA : Shape := ⟨3, ![64, 80, 1]⟩
abbrev ShD : Shape := ⟨3, ![64, 64, 1]⟩
abbrev ShI : Shape := ⟨2, ![107127, 80]⟩
abbrev ShE : Shape := ⟨2, ![107127, 64]⟩

/-- Batch element b's geometry at basis row v. -/
def geo (a : ShA.Idx → EReal) (d : ShD.Idx → EReal) (I : ShI.Idx → EReal) (E : ShE.Idx → EReal)
    (b : Fin 64) (v : Fin 107127) : EReal :=
  (∑ k : Fin 80, a (ix3 b k 0) * I (ix2 v k)) + ∑ k : Fin 64, d (ix3 b k 0) * E (ix2 v k)

/-- Landmark n's coordinate c is basis row 3n + c. -/
def row (n : Fin 35709) (c : Fin 3) : Fin 107127 := ⟨3 * n.val + c.val, by have := n.isLt; have := c.isLt; omega⟩

/-- One landmark coordinate's squared difference between the two coefficient sets. -/
def sq (a : ShA.Idx → EReal) (d : ShD.Idx → EReal) (a' : ShA.Idx → EReal) (d' : ShD.Idx → EReal)
    (I : ShI.Idx → EReal) (E : ShE.Idx → EReal) (b : Fin 64) (v : Fin 107127) : EReal :=
  (geo a d I E b v - geo a' d' I E b v) * (geo a d I E b v - geo a' d' I E b v)

/-- The weighted sum of the squared landmark differences: over the batch, the landmarks, the three coordinates. -/
def wsum (lm : Fin 68 → Fin 35709) (W : Fin 68 → EReal) (a : ShA.Idx → EReal) (d : ShD.Idx → EReal)
    (a' : ShA.Idx → EReal) (d' : ShD.Idx → EReal) (I : ShI.Idx → EReal) (E : ShE.Idx → EReal) : EReal :=
  ∑ b : Fin 64, ∑ j : Fin 68, ∑ c : Fin 3, W j * sq a d a' d' I E b (row (lm j) c)

/-- Slot 3j + c of the 256-slot table. -/
def slot (j : Fin 68) (c : Fin 3) : Fin 256 := ⟨3 * j.val + c.val, by have := j.isLt; have := c.isLt; omega⟩

/-- Among the 53 · 2048 indicator-weighted terms, one per tile s and row v of the tile, only the one at tile r / 2048,
    row r % 2048 is kept: the indicator of  r = 2048·s + v  is one there and zero elsewhere, and zero times anything is
    zero on the extended reals. -/
theorem pick_row (r : ℕ) (hr : r < 53 * 2048) (f : ℕ → Fin 2048 → EReal) :
    (∑ s ∈ Finset.range 53, ∑ v : Fin 2048, (if r = 2048 * s + v.val then (1 : EReal) else 0) * f s v)
      = f (r / 2048) ⟨r % 2048, Nat.mod_lt _ (by norm_num)⟩ := by
  rw [Finset.sum_eq_single (r / 2048)]
  · rw [Finset.sum_eq_single (⟨r % 2048, Nat.mod_lt _ (by norm_num)⟩ : Fin 2048)]
    · have h : r = 2048 * (r / 2048) + r % 2048 := (Nat.div_add_mod r 2048).symm
      rw [if_pos h, one_mul]
    · intro v _ hv
      rw [if_neg, zero_mul]
      intro h
      apply hv
      apply Fin.ext
      show v.val = r % 2048
      omega
    · intro h
      exact absurd (Finset.mem_univ _) h
  · intro s _ hs
    apply Finset.sum_eq_zero
    intro v _
    rw [if_neg, zero_mul]
    intro h
    apply hs
    have := v.isLt
    omega
  · intro h
    exfalso
    apply h
    rw [Finset.mem_range]
    omega

/-- No tile holds a row that is past every tile: the whole sum is zero. -/
theorem pick_none (r : ℕ) (hr : 53 * 2048 ≤ r) (f : ℕ → Fin 2048 → EReal) :
    (∑ s ∈ Finset.range 53, ∑ v : Fin 2048, (if r = 2048 * s + v.val then (1 : EReal) else 0) * f s v) = 0 := by
  apply Finset.sum_eq_zero
  intro s hs
  apply Finset.sum_eq_zero
  intro v _
  rw [Finset.mem_range] at hs
  have := v.isLt
  rw [if_neg, zero_mul]
  omega

/-- A sum over the 256 slots of a function that vanishes from slot 204 on is the sum over the 68 · 3 slots 3j + c:
    (j, c) ↦ 3j + c is one-to-one from Fin 68 × Fin 3 onto the slots below 204. -/
private theorem sum_slots {M : Type*} [AddCommMonoid M] (g : Fin 256 → M)
    (hg : ∀ l : Fin 256, 204 ≤ l.val → g l = 0) :
    ∑ l : Fin 256, g l = ∑ j : Fin 68, ∑ c : Fin 3, g (slot j c) := by
  rw [← Finset.sum_filter_add_sum_filter_not Finset.univ (fun l : Fin 256 => l.val < 204)]
  rw [Finset.sum_eq_zero (s := Finset.filter (fun l : Fin 256 => ¬ l.val < 204) Finset.univ), add_zero]
  · rw [← Finset.sum_product']
    symm
    apply Finset.sum_bij (fun (p : Fin 68 × Fin 3) _ => slot p.1 p.2)
    · intro p _
      rw [Finset.mem_filter]
      refine ⟨Finset.mem_univ _, ?_⟩
      have := p.1.isLt
      have := p.2.isLt
      show 3 * p.1.val + p.2.val < 204
      omega
    · intro p _ q _ h
      have h' : 3 * p.1.val + p.2.val = 3 * q.1.val + q.2.val := congrArg Fin.val h
      have := p.2.isLt
      have := q.2.isLt
      apply Prod.ext
      · apply Fin.ext
        omega
      · apply Fin.ext
        omega
    · intro l hl
      rw [Finset.mem_filter] at hl
      have hl' := hl.2
      refine ⟨(⟨l.val / 3, by omega⟩, ⟨l.val % 3, Nat.mod_lt _ (by norm_num)⟩), Finset.mem_product.mpr ⟨Finset.mem_univ _, Finset.mem_univ _⟩, ?_⟩
      apply Fin.ext
      show 3 * (l.val / 3) + l.val % 3 = l.val
      omega
    · intro p _
      rfl
  · intro l hl
    rw [Finset.mem_filter] at hl
    exact hg l (by have := hl.2; omega)

/-- The slot-first arrangement is the triple sum: the slots 3j + c, j < 68, c < 3, carry landmark j's weight and its
    coordinate c's squared difference; the remaining slots carry weight zero, so whatever stands beside it there does
    not count; and finite sums over the extended reals may be taken in any order. -/
theorem slots_eq_wsum (lm : Fin 68 → Fin 35709) (W : Fin 68 → EReal) (a : ShA.Idx → EReal) (d : ShD.Idx → EReal)
    (a' : ShA.Idx → EReal) (d' : ShD.Idx → EReal) (I : ShI.Idx → EReal) (E : ShE.Idx → EReal)
    (wK : Fin 256 → EReal) (Q : Fin 256 → Fin 64 → EReal)
    (hw : ∀ j c, wK (slot j c) = W j) (hw0 : ∀ l : Fin 256, 204 ≤ l.val → wK l = 0)
    (hQ : ∀ j c b, Q (slot j c) b = sq a d a' d' I E b (row (lm j) c)) :
    (∑ l : Fin 256, ∑ b : Fin 64, wK l * Q l b) = wsum lm W a d a' d' I E := by
  unfold wsum
  rw [sum_slots (fun l => ∑ b : Fin 64, wK l * Q l b)
    (by intro l hl; simp only [hw0 l hl, zero_mul, Finset.sum_const_zero])]
  simp only [hw, hQ]
  exact Eq.trans (Finset.sum_congr rfl fun j _ => Finset.sum_comm) Finset.sum_comm

end Cert.GeoLoss

end
-- ==== Proof.Tables.lean ====
/-
  The constant tables of the two programs, compared.

  The reference holds 68 landmark vertices and 68 weights.  The kernel holds 256 row slots and 256 weights: slot
  3j + c is basis row 3·(landmark j) + c with landmark j's weight, for j < 68 and c < 3; the 52 slots from 204 on hold
  the all-ones word, which no row number reaches, and weight zero.
-/
import proofs.«104038_j4947802325291_1_alg».proof.KernelIdeal
import proofs.«104038_j4947802325291_1_alg».proof.ReferenceIdeal
import proofs.«104038_j4947802325291_1_alg».proof.Proof.Spec

noncomputable section

namespace Cert.GeoLoss

open Idealize.ShloMosaic

/-- Every landmark vertex is one of the 35709. -/
theorem lm_lt : ∀ j : Fin 68, (Cert.ReferenceIdeal.lit0 j).toNat < 35709 := by decide

/-- Landmark j's vertex. -/
def lm (j : Fin 68) : Fin 35709 := ⟨(Cert.ReferenceIdeal.lit0 j).toNat, lm_lt j⟩

/-- Landmark j's weight, as the extended real its word denotes. -/
def wt (j : Fin 68) : EReal := Ideal.ofBits .f32 (Cert.ReferenceIdeal.lit1 j)

/-- Slot 3j + c of the kernel's row table is basis row 3·(landmark j) + c. -/
theorem rowK_slot : ∀ (j : Fin 68) (c : Fin 3),
    (Cert.KernelIdeal.lit0 (slot j c)).toNat = 3 * (Cert.ReferenceIdeal.lit0 j).toNat + c.val := by decide

/-- The slots from 204 on hold a word past every row of every tile. -/
theorem rowK_rest : ∀ l : Fin 256, 204 ≤ l.val → 53 * 2048 ≤ (Cert.KernelIdeal.lit0 l).toNat := by decide

/-- Slot 3j + c of the kernel's weight table is landmark j's weight word. -/
theorem wK_slot : ∀ (j : Fin 68) (c : Fin 3), Cert.KernelIdeal.lit1 (slot j c) = Cert.ReferenceIdeal.lit1 j := by decide

/-- The slots from 204 on weigh zero. -/
theorem wK_rest : ∀ l : Fin 256, 204 ≤ l.val → Cert.KernelIdeal.lit1 l = 0#32 := by decide

/-- Every slot below 204 holds a row of the unpadded basis. -/
theorem rowK_lt : ∀ (j : Fin 68) (c : Fin 3), (Cert.KernelIdeal.lit0 (slot j c)).toNat < 107127 := by decide

end Cert.GeoLoss

end
-- ==== Proof.KLoss.lean ====
/-
  What the last grid point stores is the landmark loss.

  Slot 3j + cc of the row table names basis row 3·(landmark j) + cc, which lies in exactly one tile; summed over the
  53 points, the indicator-weighted addends of that slot keep only that tile's row, and that row of the padded basis is
  the basis' own row: the accumulator holds the geometry at that landmark coordinate.  The finishing step weighs the
  squared difference of the two accumulators by the slot's weight, landmark j's on its three slots and zero on the 52
  unused ones, and sums over slots and batch: the weighted sum of squared landmark differences, slot-first; the
  division by 68 stays as written.
-/
import proofs.«104038_j4947802325291_1_alg».proof.Proof.KAcc
import proofs.«104038_j4947802325291_1_alg».proof.Proof.Spec
import proofs.«104038_j4947802325291_1_alg».proof.Proof.Tables

set_option maxRecDepth 16384

noncomputable section

open scoped BigOperators
open Idealize.ShloMosaic Idealize.ShloMosaic.TcCoe Idealize.SL.Sem

namespace Cert.GeoLoss.K

open Cert.KernelIdeal Cert.KernelIdeal.Gen Idealize.ShloMosaic.ValueIdx Cert.GeoLoss

variable (m : (ℓ : Loc nD τ sig) → Buf (Elt Ideal) ℓ)

/-- Summed over the 53 points, slot 3j + cc of accumulator 0 is the first geometry at landmark j's coordinate cc: only the
    tile that holds that basis row contributes, and there the tile's row is the basis' own (it lies above the padding). -/
theorem acc0_slot (c : Dev nD) (j : Fin 68) (cc : Fin 3) (b : Fin 64) :
    (∑ s ∈ Finset.range 53, add0 m c s (slot j cc) b)
      = geo (m ((c : Thread nD τ).loc main_arg0)) (m ((c : Thread nD τ).loc main_arg1))
          (m ((c : Thread nD τ).loc main_arg4)) (m ((c : Thread nD τ).loc main_arg5)) b (row (lm j) cc) := by
  have hN : cfg0.N = 53 := N_0
  have hrow : (lit0 (slot j cc)).toNat = 3 * (lm j).val + cc.val := rowK_slot j cc
  have hlt : (lit0 (slot j cc)).toNat < 107127 := rowK_lt j cc
  let f : ℕ → Fin 2048 → EReal := fun s v =>
    if h : s < cfg0.N then tileGeo (iblk m c 0 ⟨s, h⟩) (iblk m c 1 ⟨s, h⟩) (iblk m c 2 ⟨s, h⟩) (iblk m c 3 ⟨s, h⟩) v b else 0
  have e1 : ∀ s ∈ Finset.range 53, add0 m c s (slot j cc) b
      = ∑ v : Fin 2048, (if (lit0 (slot j cc)).toNat = 2048 * s + v.val then (1 : EReal) else 0) * f s v := by
    intro s hs
    have hs' : s < cfg0.N := by rw [hN]; exact Finset.mem_range.mp hs
    unfold add0
    rw [dif_pos hs']
    refine Finset.sum_congr rfl fun v _ => ?_
    show _ = _ * (if h : s < cfg0.N then _ else 0)
    rw [dif_pos hs']
  rw [Finset.sum_congr rfl e1]
  generalize (lit0 (slot j cc)).toNat = r at hrow hlt ⊢
  rw [pick_row r (by omega) f]
  have hs0 : r / 2048 < cfg0.N := by rw [hN]; omega
  have hrr : 2048 * (r / 2048) + r % 2048 < 107127 := by rw [Nat.div_add_mod]; exact hlt
  have hrow' : (⟨2048 * (r / 2048) + r % 2048, hrr⟩ : Fin 107127) = row (lm j) cc :=
    Fin.ext (by show 2048 * (r / 2048) + r % 2048 = 3 * (lm j).val + cc.val; rw [Nat.div_add_mod]; exact hrow)
  show (if h : r / 2048 < cfg0.N then _ else 0) = _
  rw [dif_pos hs0]
  unfold tileGeo geo
  congr 1
  · refine Finset.sum_congr rfl fun k _ => ?_
    rw [blk0_apply m c ⟨r / 2048, hs0⟩ ⟨r % 2048, Nat.mod_lt _ (by norm_num)⟩ k hrr, blk2_apply m c ⟨r / 2048, hs0⟩ b k, hrow', mul_comm]
  · refine Finset.sum_congr rfl fun k _ => ?_
    rw [blk1_apply m c ⟨r / 2048, hs0⟩ ⟨r % 2048, Nat.mod_lt _ (by norm_num)⟩ k hrr, blk3_apply m c ⟨r / 2048, hs0⟩ b k, hrow', mul_comm]

/-- Summed over the 53 points, slot 3j + cc of accumulator 1 is the second geometry at landmark j's coordinate cc: only the
    tile that holds that basis row contributes, and there the tile's row is the basis' own (it lies above the padding). -/
theorem acc1_slot (c : Dev nD) (j : Fin 68) (cc : Fin 3) (b : Fin 64) :
    (∑ s ∈ Finset.range 53, add1 m c s (slot j cc) b)
      = geo (m ((c : Thread nD τ).loc main_arg2)) (m ((c : Thread nD τ).loc main_arg3))
          (m ((c : Thread nD τ).loc main_arg4)) (m ((c : Thread nD τ).loc main_arg5)) b (row (lm j) cc) := by
  have hN : cfg0.N = 53 := N_0
  have hrow : (lit0 (slot j cc)).toNat = 3 * (lm j).val + cc.val := rowK_slot j cc
  have hlt : (lit0 (slot j cc)).toNat < 107127 := rowK_lt j cc
  let f : ℕ → Fin 2048 → EReal := fun s v =>
    if h : s < cfg0.N then tileGeo (iblk m c 0 ⟨s, h⟩) (iblk m c 1 ⟨s, h⟩) (iblk m c 4 ⟨s, h⟩) (iblk m c 5 ⟨s, h⟩) v b else 0
  have e1 : ∀ s ∈ Finset.range 53, add1 m c s (slot j cc) b
      = ∑ v : Fin 2048, (if (lit0 (slot j cc)).toNat = 2048 * s + v.val then (1 : EReal) else 0) * f s v := by
    intro s hs
    have hs' : s < cfg0.N := by rw [hN]; exact Finset.mem_range.mp hs
    unfold add1
    rw [dif_pos hs']
    refine Finset.sum_congr rfl fun v _ => ?_
    show _ = _ * (if h : s < cfg0.N then _ else 0)
    rw [dif_pos hs']
  rw [Finset.sum_congr rfl e1]
  generalize (lit0 (slot j cc)).toNat = r at hrow hlt ⊢
  rw [pick_row r (by omega) f]
  have hs0 : r / 2048 < cfg0.N := by rw [hN]; omega
  have hrr : 2048 * (r / 2048) + r % 2048 < 107127 := by rw [Nat.div_add_mod]; exact hlt
  have hrow' : (⟨2048 * (r / 2048) + r % 2048, hrr⟩ : Fin 107127) = row (lm j) cc :=
    Fin.ext (by show 2048 * (r / 2048) + r % 2048 = 3 * (lm j).val + cc.val; rw [Nat.div_add_mod]; exact hrow)
  show (if h : r / 2048 < cfg0.N then _ else 0) = _
  rw [dif_pos hs0]
  unfold tileGeo geo
  congr 1
  · refine Finset.sum_congr rfl fun k _ => ?_
    rw [blk0_apply m c ⟨r / 2048, hs0⟩ ⟨r % 2048, Nat.mod_lt _ (by norm_num)⟩ k hrr, blk4_apply m c ⟨r / 2048, hs0⟩ b k, hrow', mul_comm]
  · refine Finset.sum_congr rfl fun k _ => ?_
    rw [blk1_apply m c ⟨r / 2048, hs0⟩ ⟨r % 2048, Nat.mod_lt _ (by norm_num)⟩ k hrr, blk5_apply m c ⟨r / 2048, hs0⟩ b k, hrow', mul_comm]

/-- The entry the last point stores: the weighted sum of squared landmark differences over the word 68.0 denotes. -/
theorem loss_value (c : Dev nD) (h52 : 52 < cfg0.N) (y : S1x1.Idx) :
    (outsAt0 m c 52 h52).1 y
      = Ideal.div (wsum lm wt (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5)))
          (Ideal.ofBits .f32 0x42880000#32) := by
  rw [out_last m c h52]
  refine (finish_apply _ _ _ y).trans ?_
  refine congrArg (fun S => Ideal.div S (Ideal.ofBits .f32 0x42880000#32)) ?_
  refine slots_eq_wsum lm wt _ _ _ _ _ _
    (fun l => (iblk m c 7 ⟨52, h52⟩ : Vec Ideal S256x1 .f32) (ix2 l 0))
    (fun l b => ((outsAt0 m c 52 h52).2.1 (ix2 l b) - (outsAt0 m c 52 h52).2.2 (ix2 l b))
      * ((outsAt0 m c 52 h52).2.1 (ix2 l b) - (outsAt0 m c 52 h52).2.2 (ix2 l b))) ?_ ?_ ?_
  · intro j cc
    show (iblk m c 7 ⟨52, h52⟩ : Vec Ideal S256x1 .f32) (ix2 (slot j cc) 0) = wt j
    rw [blk7_apply m c ⟨52, h52⟩ (slot j cc)]
    show Ideal.ofBits .f32 (lit1 (slot j cc)) = Ideal.ofBits .f32 (Cert.ReferenceIdeal.lit1 j)
    rw [wK_slot j cc]
  · intro l hl
    show (iblk m c 7 ⟨52, h52⟩ : Vec Ideal S256x1 .f32) (ix2 l 0) = (0 : EReal)
    rw [blk7_apply m c ⟨52, h52⟩ l]
    show Ideal.ofBits .f32 (lit1 l) = (0 : EReal)
    rw [wK_rest l hl]
    exact Ideal.ofBits_zero_f32
  · intro j cc b
    show ((outsAt0 m c 52 h52).2.1 (ix2 (slot j cc) b) - (outsAt0 m c 52 h52).2.2 (ix2 (slot j cc) b))
        * ((outsAt0 m c 52 h52).2.1 (ix2 (slot j cc) b) - (outsAt0 m c 52 h52).2.2 (ix2 (slot j cc) b)) = _
    rw [(accs_eq m c 52 h52 (slot j cc) b).1, (accs_eq m c 52 h52 (slot j cc) b).2, acc0_slot, acc1_slot]
    rfl

end Cert.GeoLoss.K

end
-- ==== Proof.RefTerm.lean ====
/-
  The reference's result as one term of its six argument arrays, stage by stage as its host operations compose:
  the two coefficient arrays lose their unit axis; each is multiplied into its basis (contracting the coefficient
  axis of both operands), the two products are added and the 107127 rows are read as 35709 landmarks of 3
  coordinates; the 68 landmark rows are gathered along the landmark axis at the constant index table (an entry
  below zero would be wrapped by 35709 first: none is); the two geometries are subtracted and squared, weighted by
  the constant weight table spread over batch and coordinate, summed over every axis from zero, and divided by 68.
-/
import proofs.«104038_j4947802325291_1_alg».proof.ReferenceIdeal
import proofs.«104038_j4947802325291_1_alg».proof.Proof.Gen.ReferenceIdeal

noncomputable section

namespace Cert.GeoLoss.Ref

open Cert.ReferenceIdeal Cert.ReferenceIdeal.Gen Idealize.ShloMosaic Idealize.ShloMosaic.TcCoe

variable {F : FTy → Type} [FloatOps F]

/-- The constant landmark index table. -/
abbrev lmTab : (⟨S68, .i32⟩ : BufTy).Contents (Elt F) := fun i => lit0 (S68.rowMajor i)

/-- The constant landmark weight table. -/
abbrev wTab : (⟨S68, .f32⟩ : BufTy).Contents (Elt F) := fun i => FloatOps.ofBits .f32 (lit1 (S68.rowMajor i))

/-- The start indices of the gather: each table entry, wrapped by 35709 if it were negative, as a column. -/
def lmIdx : (⟨S68x1, .i32⟩ : BufTy).Contents (Elt F) :=
  broadcastInDim S68x1 ![0] bcast_S68_S68x1_0
    (select (cmpi .slt (lmTab (F := F)) (broadcastInDim S68 ![] bcast_S_S68 (constantI S_ 32 0#32)))
      (addi (lmTab (F := F)) (broadcastInDim S68 ![] bcast_S_S68 (constantI S_ 32 35709#32))) (lmTab (F := F)))

/-- The geometry of every batch element at every landmark coordinate: [64, 35709, 3]. -/
def geoAll (a : (⟨S64x80x1, .f32⟩ : BufTy).Contents (Elt F)) (d : (⟨S64x64x1, .f32⟩ : BufTy).Contents (Elt F))
    (I : (⟨S107127x80, .f32⟩ : BufTy).Contents (Elt F)) (E : (⟨S107127x64, .f32⟩ : BufTy).Contents (Elt F)) :
    (⟨S64x35709x3, .f32⟩ : BufTy).Contents (Elt F) :=
  shapeCast S64x35709x3
    (addf (Host.dotGeneral dot_S64x80_S107127x80_S64x107127_1_1_0_0_n_n none (shapeCast S64x80 a shapeCasts_S64x80x1_S64x80) I)
      (Host.dotGeneral dot_S64x64_S107127x64_S64x107127_1_1_0_0_n_n none (shapeCast S64x64 d shapeCasts_S64x64x1_S64x64) E))
    shapeCasts_S64x107127_S64x35709x3

/-- The 68 landmarks' geometry: [64, 68, 3]. -/
def geoLm (a : (⟨S64x80x1, .f32⟩ : BufTy).Contents (Elt F)) (d : (⟨S64x64x1, .f32⟩ : BufTy).Contents (Elt F))
    (I : (⟨S107127x80, .f32⟩ : BufTy).Contents (Elt F)) (E : (⟨S107127x64, .f32⟩ : BufTy).Contents (Elt F)) :
    (⟨S64x68x3, .f32⟩ : BufTy).Contents (Elt F) :=
  Host.gather gather_S64x35709x3_S68x1_S64x68x3_02_1_n_n_1_1_6413 (geoAll a d I E) (lmIdx (F := F))

/-- The weights spread over batch and coordinate: [64, 68, 3]. -/
def wAll : (⟨S64x68x3, .f32⟩ : BufTy).Contents (Elt F) :=
  broadcastInDim S64x68x3 ![0, 1, 2] bcast_S1x68x1_S64x68x3_0_1_2 (broadcastInDim S1x68x1 ![1] bcast_S68_S1x68x1_1 (wTab (F := F)))

/-- The reference's result. -/
def result (a : (⟨S64x80x1, .f32⟩ : BufTy).Contents (Elt F)) (d : (⟨S64x64x1, .f32⟩ : BufTy).Contents (Elt F))
    (a' : (⟨S64x80x1, .f32⟩ : BufTy).Contents (Elt F)) (d' : (⟨S64x64x1, .f32⟩ : BufTy).Contents (Elt F))
    (I : (⟨S107127x80, .f32⟩ : BufTy).Contents (Elt F)) (E : (⟨S107127x64, .f32⟩ : BufTy).Contents (Elt F)) :
    (⟨S_, .f32⟩ : BufTy).Contents (Elt F) :=
  Host.divf
    (Host.reduceAdd
      (mulf (wAll (F := F)) (mulf (subf (geoLm a d I E) (geoLm a' d' I E)) (subf (geoLm a d I E) (geoLm a' d' I E))))
      (constant S_ .f32 0x00000000#32) reducesTo_S64x68x3_S_d0_1_2 h_S_)
    (constant S_ .f32 0x42880000#32)

end Cert.GeoLoss.Ref

end
-- ==== Proof.RefRun.lean ====
/-
  The reference program's run, read back: its @main is a straight line of 41 host operations, so every weakly fair
  execution terminates, the result buffer ends at the operations' composed term of the argument arrays — the term
  named stage by stage beside this module — and the six argument arrays end as they began.
-/
import proofs.«104038_j4947802325291_1_alg».proof.Proof.RefTerm
import Idealize.ShloMosaic.Lib.StableHlo.Run

noncomputable section

namespace Cert.GeoLoss.Ref

open Cert.ReferenceIdeal Cert.ReferenceIdeal.Gen Idealize.ShloMosaic Idealize.ShloMosaic.TcCoe Idealize.SL.Sem Idealize.ShloMosaic.StableHlo

variable {F : FTy → Type} [FloatOps F]

/-- @main's 41 operations, in order. -/
abbrev ops : List (HloOp τ sig (Elt F)) :=
  [
    nullary main_c (fun i => lit0 (S68.rowMajor i)),
    nullary main_cst (fun i => FloatOps.ofBits .f32 (lit1 (S68.rowMajor i))),
    unary main_cst main_v0 (broadcastInDim S1x68x1 ![1] bcast_S68_S1x68x1_1 : (⟨S68, .f32⟩ : BufTy).Contents (Elt F) → (⟨S1x68x1, .f32⟩ : BufTy).Contents (Elt F)),
    reshape main_arg0 main_v1 rfl shapeCasts_S64x80x1_S64x80,
    binary main_v1 main_arg4 main_v2 ((fun l r => Host.dotGeneral dot_S64x80_S107127x80_S64x107127_1_1_0_0_n_n none l r) : (⟨S64x80, .f32⟩ : BufTy).Contents (Elt F) → (⟨S107127x80, .f32⟩ : BufTy).Contents (Elt F) → (⟨S64x107127, .f32⟩ : BufTy).Contents (Elt F)),
    reshape main_arg1 main_v3 rfl shapeCasts_S64x64x1_S64x64,
    binary main_v3 main_arg5 main_v4 ((fun l r => Host.dotGeneral dot_S64x64_S107127x64_S64x107127_1_1_0_0_n_n none l r) : (⟨S64x64, .f32⟩ : BufTy).Contents (Elt F) → (⟨S107127x64, .f32⟩ : BufTy).Contents (Elt F) → (⟨S64x107127, .f32⟩ : BufTy).Contents (Elt F)),
    binary main_v2 main_v4 main_v5 (addf : (⟨S64x107127, .f32⟩ : BufTy).Contents (Elt F) → (⟨S64x107127, .f32⟩ : BufTy).Contents (Elt F) → (⟨S64x107127, .f32⟩ : BufTy).Contents (Elt F)),
    reshape main_v5 main_v6 rfl shapeCasts_S64x107127_S64x35709x3,
    nullary main_c_0 (constantI S_ 32 0#32),
    unary main_c_0 main_v7 (broadcastInDim S68 ![] bcast_S_S68 : (⟨S_, .i32⟩ : BufTy).Contents (Elt F) → (⟨S68, .i32⟩ : BufTy).Contents (Elt F)),
    binary main_c main_v7 main_v8 (cmpi .slt : (⟨S68, .i32⟩ : BufTy).Contents (Elt F) → (⟨S68, .i32⟩ : BufTy).Contents (Elt F) → (⟨S68, .i1⟩ : BufTy).Contents (Elt F)),
    nullary main_c_1 (constantI S_ 32 35709#32),
    unary main_c_1 main_v9 (broadcastInDim S68 ![] bcast_S_S68 : (⟨S_, .i32⟩ : BufTy).Contents (Elt F) → (⟨S68, .i32⟩ : BufTy).Contents (Elt F)),
    binary main_c main_v9 main_v10 (addi : (⟨S68, .i32⟩ : BufTy).Contents (Elt F) → (⟨S68, .i32⟩ : BufTy).Contents (Elt F) → (⟨S68, .i32⟩ : BufTy).Contents (Elt F)),
    ternary main_v8 main_v10 main_c main_v11 (select : (⟨S68, .i1⟩ : BufTy).Contents (Elt F) → (⟨S68, .i32⟩ : BufTy).Contents (Elt F) → (⟨S68, .i32⟩ : BufTy).Contents (Elt F) → (⟨S68, .i32⟩ : BufTy).Contents (Elt F)),
    unary main_v11 main_v12 (broadcastInDim S68x1 ![0] bcast_S68_S68x1_0 : (⟨S68, .i32⟩ : BufTy).Contents (Elt F) → (⟨S68x1, .i32⟩ : BufTy).Contents (Elt F)),
    binary main_v6 main_v12 main_v13 ((fun x i => Host.gather gather_S64x35709x3_S68x1_S64x68x3_02_1_n_n_1_1_6413 x i) : (⟨S64x35709x3, .f32⟩ : BufTy).Contents (Elt F) → (⟨S68x1, .i32⟩ : BufTy).Contents (Elt F) → (⟨S64x68x3, .f32⟩ : BufTy).Contents (Elt F)),
    reshape main_arg2 main_v14 rfl shapeCasts_S64x80x1_S64x80,
    binary main_v14 main_arg4 main_v15 ((fun l r => Host.dotGeneral dot_S64x80_S107127x80_S64x107127_1_1_0_0_n_n none l r) : (⟨S64x80, .f32⟩ : BufTy).Contents (Elt F) → (⟨S107127x80, .f32⟩ : BufTy).Contents (Elt F) → (⟨S64x107127, .f32⟩ : BufTy).Contents (Elt F)),
    reshape main_arg3 main_v16 rfl shapeCasts_S64x64x1_S64x64,
    binary main_v16 main_arg5 main_v17 ((fun l r => Host.dotGeneral dot_S64x64_S107127x64_S64x107127_1_1_0_0_n_n none l r) : (⟨S64x64, .f32⟩ : BufTy).Contents (Elt F) → (⟨S107127x64, .f32⟩ : BufTy).Contents (Elt F) → (⟨S64x107127, .f32⟩ : BufTy).Contents (Elt F)),
    binary main_v15 main_v17 main_v18 (addf : (⟨S64x107127, .f32⟩ : BufTy).Contents (Elt F) → (⟨S64x107127, .f32⟩ : BufTy).Contents (Elt F) → (⟨S64x107127, .f32⟩ : BufTy).Contents (Elt F)),
    reshape main_v18 main_v19 rfl shapeCasts_S64x107127_S64x35709x3,
    nullary main_c_2 (constantI S_ 32 0#32),
    unary main_c_2 main_v20 (broadcastInDim S68 ![] bcast_S_S68 : (⟨S_, .i32⟩ : BufTy).Contents (Elt F) → (⟨S68, .i32⟩ : BufTy).Contents (Elt F)),
    binary main_c main_v20 main_v21 (cmpi .slt : (⟨S68, .i32⟩ : BufTy).Contents (Elt F) → (⟨S68, .i32⟩ : BufTy).Contents (Elt F) → (⟨S68, .i1⟩ : BufTy).Contents (Elt F)),
    nullary main_c_3 (constantI S_ 32 35709#32),
    unary main_c_3 main_v22 (broadcastInDim S68 ![] bcast_S_S68 : (⟨S_, .i32⟩ : BufTy).Contents (Elt F) → (⟨S68, .i32⟩ : BufTy).Contents (Elt F)),
    binary main_c main_v22 main_v23 (addi : (⟨S68, .i32⟩ : BufTy).Contents (Elt F) → (⟨S68, .i32⟩ : BufTy).Contents (Elt F) → (⟨S68, .i32⟩ : BufTy).Contents (Elt F)),
    ternary main_v21 main_v23 main_c main_v24 (select : (⟨S68, .i1⟩ : BufTy).Contents (Elt F) → (⟨S68, .i32⟩ : BufTy).Contents (Elt F) → (⟨S68, .i32⟩ : BufTy).Contents (Elt F) → (⟨S68, .i32⟩ : BufTy).Contents (Elt F)),
    unary main_v24 main_v25 (broadcastInDim S68x1 ![0] bcast_S68_S68x1_0 : (⟨S68, .i32⟩ : BufTy).Contents (Elt F) → (⟨S68x1, .i32⟩ : BufTy).Contents (Elt F)),
    binary main_v19 main_v25 main_v26 ((fun x i => Host.gather gather_S64x35709x3_S68x1_S64x68x3_02_1_n_n_1_1_6413 x i) : (⟨S64x35709x3, .f32⟩ : BufTy).Contents (Elt F) → (⟨S68x1, .i32⟩ : BufTy).Contents (Elt F) → (⟨S64x68x3, .f32⟩ : BufTy).Contents (Elt F)),
    binary main_v13 main_v26 main_v27 (subf : (⟨S64x68x3, .f32⟩ : BufTy).Contents (Elt F) → (⟨S64x68x3, .f32⟩ : BufTy).Contents (Elt F) → (⟨S64x68x3, .f32⟩ : BufTy).Contents (Elt F)),
    binary main_v27 main_v27 main_v28 (mulf : (⟨S64x68x3, .f32⟩ : BufTy).Contents (Elt F) → (⟨S64x68x3, .f32⟩ : BufTy).Contents (Elt F) → (⟨S64x68x3, .f32⟩ : BufTy).Contents (Elt F)),
    unary main_v0 main_v29 (broadcastInDim S64x68x3 ![0, 1, 2] bcast_S1x68x1_S64x68x3_0_1_2 : (⟨S1x68x1, .f32⟩ : BufTy).Contents (Elt F) → (⟨S64x68x3, .f32⟩ : BufTy).Contents (Elt F)),
    binary main_v29 main_v28 main_v30 (mulf : (⟨S64x68x3, .f32⟩ : BufTy).Contents (Elt F) → (⟨S64x68x3, .f32⟩ : BufTy).Contents (Elt F) → (⟨S64x68x3, .f32⟩ : BufTy).Contents (Elt F)),
    nullary main_cst_4 (constant S_ .f32 0x00000000#32),
    binary main_v30 main_cst_4 main_v31 ((fun x v => Host.reduceAdd x v reducesTo_S64x68x3_S_d0_1_2 h_S_) : (⟨S64x68x3, .f32⟩ : BufTy).Contents (Elt F) → (⟨S_, .f32⟩ : BufTy).Contents (Elt F) → (⟨S_, .f32⟩ : BufTy).Contents (Elt F)),
    nullary main_cst_5 (constant S_ .f32 0x42880000#32),
    binary main_v31 main_cst_5 main_v32 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., reshape_bufs_sub .., binary_bufs_sub .., reshape_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., reshape_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., nullary_bufs_sub .., binary_bufs_sub .., nullary_bufs_sub .., binary_bufs_sub ..⟩

/-- On every device, for any float values, from any memory with zero counters: every weakly fair execution of the
    reference terminates with its result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.GeoLoss.Ref

end
-- ==== Proof.RefValue.lean ====
/-
  The reference's result is the landmark loss.

  Read at the extended reals, stage by stage: the product of a coefficient array with a basis, contracting the
  coefficient axis of both, is at (b, v) the sum over k of a(b,k)·I(v,k); the sum of the two products, read as
  35709 landmarks of 3 coordinates, is at (b, n, c) the geometry of b at basis row 3n + c; the gather along the
  landmark axis picks landmark j's vertex (every table entry is a vertex number, so neither the wrap of negative
  entries nor the clamp of the gather changes it); the weight spread over batch and coordinate is landmark j's
  weight; the sum over every axis from zero is the triple sum; and the division by 68 is left as it stands.
-/
import proofs.«104038_j4947802325291_1_alg».proof.Proof.RefTerm
import proofs.«104038_j4947802325291_1_alg».proof.Proof.Tables
import Idealize.ShloMosaic.PureOps.Ideal.Laws
import Idealize.ShloMosaic.Lib.ValueIdx
import Idealize.ShloMosaic.Lib.Pipeline.Value

noncomputable section

open scoped BigOperators

namespace Cert.GeoLoss.Ref

open Cert.ReferenceIdeal Cert.ReferenceIdeal.Gen Idealize.ShloMosaic Idealize.ShloMosaic.TcCoe Idealize.ShloMosaic.ValueIdx

/-! ## A product contracting axis 1 of both operands, read at an index -/

/-- M×K by N×K: axis 1 of both operands contracted, no batch axes. -/
private structure IsNT {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Axes
variable {M K N : Nat} (d : DotDims ⟨2, ![M, K]⟩ ⟨2, ![N, K]⟩ ⟨2, ![M, N]⟩) (hd : IsNT d)
include hd

/-- Such a product contracts exactly one axis. -/
private theorem nt_contr_rank : d.contr.rank = 1 := by
  rw [d.rank_contr, hd.lc]; rfl

/-- The contracted axis has the common extent K. -/
private theorem nt_contr_size : d.contr.size ⟨0, by rw [nt_contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
private theorem nt_lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
private theorem nt_lhs_axis1 (j : (⟨2, ![M, N]⟩ : Shape).Idx) (k : d.contr.Idx) :
    (d.lhsIdx j k 1).val = (k ⟨0, by rw [nt_contr_rank d hd]; exact Nat.one_pos⟩).val :=
  d.lhsIdx_val_of_single hd.lc j k

/-- The right operand's row coordinate is the output's column coordinate. -/
private theorem nt_rhs_axis0 (j : (⟨2, ![M, N]⟩ : Shape).Idx) (k : d.contr.Idx) : (d.rhsIdx j k 0).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The right operand's column coordinate is the contracted coordinate. -/
private theorem nt_rhs_axis1 (j : (⟨2, ![M, N]⟩ : Shape).Idx) (k : d.contr.Idx) :
    (d.rhsIdx j k 1).val = (k ⟨0, by rw [nt_contr_rank d hd]; exact Nat.one_pos⟩).val :=
  d.rhsIdx_val_of_single hd.rc j k

/-- The sum over the contraction index, re-indexed by the contracted coordinate: the operands are read at (p, κ) and
    (q, κ). -/
private theorem sum_contr_nt {φ₁ φ₂ : FTy} (l : FVec Ideal ⟨2, ![M, K]⟩ φ₁) (r : FVec Ideal ⟨2, ![N, K]⟩ φ₂)
    (p : Fin M) (q : Fin N) :
    ∑ k : d.contr.Idx, l (d.lhsIdx (ix2 p q) k) * r (d.rhsIdx (ix2 p q) k) = ∑ κ : Fin K, l (ix2 p κ) * r (ix2 q κ) := by
  refine (Equiv.sum_comp (contrEquiv1 d K (nt_contr_rank d hd) (nt_contr_size d hd)).symm _).symm.trans ?_
  refine Finset.sum_congr rfl fun κ _ => ?_
  have hl : d.lhsIdx (ix2 p q) ((contrEquiv1 d K (nt_contr_rank d hd) (nt_contr_size d hd)).symm κ) = ix2 p κ := by
    funext a
    match a with
    | ⟨0, _⟩ => exact Fin.ext (nt_lhs_axis0 d hd _ _)
    | ⟨1, _⟩ => exact Fin.ext ((nt_lhs_axis1 d hd _ _).trans (contrEquiv1_symm_val d K _ _ κ))
  have hr : d.rhsIdx (ix2 p q) ((contrEquiv1 d K (nt_contr_rank d hd) (nt_contr_size d hd)).symm κ) = ix2 q κ := by
    funext a
    match a with
    | ⟨0, _⟩ => exact Fin.ext (nt_rhs_axis0 d hd _ _)
    | ⟨1, _⟩ => exact Fin.ext ((nt_rhs_axis1 d hd _ _).trans (contrEquiv1_symm_val d K _ _ κ))
  rw [hl, hr]

end Axes

/-- The host's dot_general for such dimension numbers, at (p, q): the sum over κ of l (p, κ) * r (q, κ). -/
private theorem dotGeneral_nt {M K N : Nat} {φ₁ φ₂ : FTy} (d : DotDims ⟨2, ![M, K]⟩ ⟨2, ![N, K]⟩ ⟨2, ![M, N]⟩) (hd : IsNT d)
    (prec : Option ContractPrecision) (sched : HostSchedule)
    (l : FVec Ideal ⟨2, ![M, K]⟩ φ₁) (r : FVec Ideal ⟨2, ![N, K]⟩ φ₂) (p : Fin M) (q : Fin N) :
    FloatOps.dotGeneral d prec sched l r (ix2 p q) = ∑ κ : Fin K, l (ix2 p κ) * r (ix2 q κ) :=
  (Ideal.dotGeneral_apply d prec sched l r (ix2 p q)).trans (sum_contr_nt d hd l r p q)

/-- The 80-wide product at (b, v). -/
private theorem dotA_apply (l : FVec Ideal S64x80 .f32) (r : FVec Ideal S107127x80 .f32) (b : Fin 64) (v : Fin 107127) :
    Host.dotGeneral dot_S64x80_S107127x80_S64x107127_1_1_0_0_n_n none l r (ix2 b v) = ∑ k : Fin 80, l (ix2 b k) * r (ix2 v k) :=
  dotGeneral_nt dot_S64x80_S107127x80_S64x107127_1_1_0_0_n_n ⟨rfl, rfl, rfl, rfl, rfl, rfl⟩ none .single l r b v

/-- The 64-wide product at (b, v). -/
private theorem dotD_apply (l : FVec Ideal S64x64 .f32) (r : FVec Ideal S107127x64 .f32) (b : Fin 64) (v : Fin 107127) :
    Host.dotGeneral dot_S64x64_S107127x64_S64x107127_1_1_0_0_n_n none l r (ix2 b v) = ∑ k : Fin 64, l (ix2 b k) * r (ix2 v k) :=
  dotGeneral_nt dot_S64x64_S107127x64_S64x107127_1_1_0_0_n_n ⟨rfl, rfl, rfl, rfl, rfl, rfl⟩ none .single l r b v

/-! ## The reshapes, read at an index -/

/-- Dropping the trailing unit axis of the 80-wide coefficients: (b, k) reads (b, k, 0). -/
private theorem castA_apply (a : (⟨S64x80x1, .f32⟩ : BufTy).Contents (Elt Ideal)) (b : Fin 64) (k : Fin 80) :
    shapeCast S64x80 a shapeCasts_S64x80x1_S64x80 (ix2 b k) = a (ix3 b k 0) := by
  refine shapeCast_apply a _ (ix2 b k) (ix3 b k 0) ?_
  rw [Shape.rowMajor_val_three, Shape.rowMajor_val_two]
  show (b.val * 80 + k.val) * 1 + 0 = b.val * 80 + k.val
  omega

/-- Dropping the trailing unit axis of the 64-wide coefficients: (b, k) reads (b, k, 0). -/
private theorem castD_apply (a : (⟨S64x64x1, .f32⟩ : BufTy).Contents (Elt Ideal)) (b : Fin 64) (k : Fin 64) :
    shapeCast S64x64 a shapeCasts_S64x64x1_S64x64 (ix2 b k) = a (ix3 b k 0) := by
  refine shapeCast_apply a _ (ix2 b k) (ix3 b k 0) ?_
  rw [Shape.rowMajor_val_three, Shape.rowMajor_val_two]
  show (b.val * 64 + k.val) * 1 + 0 = b.val * 64 + k.val
  omega

/-- Reading the 107127 rows as 35709 landmarks of 3 coordinates: (b, n, c) reads (b, 3n + c). -/
private theorem cast3_apply (g : (⟨S64x107127, .f32⟩ : BufTy).Contents (Elt Ideal)) (b : Fin 64) (n : Fin 35709) (cc : Fin 3) :
    shapeCast S64x35709x3 g shapeCasts_S64x107127_S64x35709x3 (ix3 b n cc) = g (ix2 b (Cert.GeoLoss.row n cc)) := by
  refine shapeCast_apply g _ (ix3 b n cc) (ix2 b (Cert.GeoLoss.row n cc)) ?_
  rw [Shape.rowMajor_val_three, Shape.rowMajor_val_two]
  show b.val * 107127 + (3 * n.val + cc.val) = (b.val * 35709 + n.val) * 3 + cc.val
  omega

/-- The geometry of every batch element at every landmark coordinate is the geometry at basis row 3n + c. -/
private theorem geoAll_apply (a : (⟨S64x80x1, .f32⟩ : BufTy).Contents (Elt Ideal)) (d : (⟨S64x64x1, .f32⟩ : BufTy).Contents (Elt Ideal))
    (I : (⟨S107127x80, .f32⟩ : BufTy).Contents (Elt Ideal)) (E : (⟨S107127x64, .f32⟩ : BufTy).Contents (Elt Ideal))
    (b : Fin 64) (n : Fin 35709) (cc : Fin 3) :
    geoAll (F := Ideal) a d I E (ix3 b n cc) = Cert.GeoLoss.geo a d I E b (Cert.GeoLoss.row n cc) := by
  unfold geoAll
  refine (cast3_apply _ b n cc).trans ?_
  rw [addf_apply, dotA_apply, dotD_apply]
  unfold Cert.GeoLoss.geo
  congr 1
  · refine Finset.sum_congr rfl fun k _ => ?_
    rw [castA_apply]
  · refine Finset.sum_congr rfl fun k _ => ?_
    rw [castD_apply]

/-! ## The landmark table and the gather -/

/-- The one-axis table's row-major position is its coordinate. -/
private theorem rowMajor68 (j : Fin 68) : S68.rowMajor (ix1 j) = j := Fin.ext (Shape.rowMajor_val_one (ix1 j))

/-- No table entry is below zero as a signed word. -/
private theorem lit0_nonneg : ∀ j : Fin 68, IntOp.cmpi .slt (lit0 j) 0#32 = 0#1 := by decide

/-- Every table entry read as a signed integer is its unsigned value. -/
private theorem lit0_toInt : ∀ j : Fin 68, (lit0 j).toInt.toNat = (lit0 j).toNat := by decide

/-- The start index of landmark j is the table's entry: none is negative, so none is wrapped. -/
private theorem lmIdx_apply (j : Fin 68) : lmIdx (F := Ideal) (ix2 j 0) = lit0 j := by
  unfold lmIdx
  refine (broadcastInDim_apply (![0]) bcast_S68_S68x1_0 _ (ix2 j 0) (ix1 j) ?_).trans ?_
  · intro a
    match a with
    | ⟨0, _⟩ => rfl
  rw [select_apply]
  have hc : cmpi .slt (lmTab (F := Ideal)) (broadcastInDim S68 ![] bcast_S_S68 (constantI S_ 32 0#32)) (ix1 j) = 0#1 := by
    show IntOp.cmpi .slt (lit0 (S68.rowMajor (ix1 j))) 0#32 = 0#1
    rw [rowMajor68]
    exact lit0_nonneg j
  rw [hc, select_zero]
  show lit0 (S68.rowMajor (ix1 j)) = lit0 j
  rw [rowMajor68]

/-- The gather's dimension numbers: axes 0 and 2 of the operand are carried whole as the result's axes 0 and 2, axis 1
    is collapsed and indexed by the one component of the start index. -/
private abbrev gLm := gather_S64x35709x3_S68x1_S64x68x3_02_1_n_n_1_1_6413

/-- The gather along the landmark axis, at (b, j, c): the operand at (b, the start index of j read signed and clamped
    into the 35709 landmarks, c). On axes 0 and 2 the slice starts at zero and the offset is the result's coordinate; on
    axis 1 the slice starts at the clamped index and the offset is zero. -/
private theorem gather_apply {α : Type} {w : Nat} (x : S64x35709x3.Idx → α) (idx : IVec S68x1 w) (b : Fin 64) (j : Fin 68) (cc : Fin 3) :
    Host.gather gLm x idx (ix3 b j cc) = x (ix3 b ⟨min (idx (ix2 j 0)).toInt.toNat (35709 - 1), by omega⟩ cc) := by
  have h0m : (0 : Fin 3) ∉ gLm.startIndexMap := fun h => absurd (List.mem_singleton.mp h) (by decide)
  have h2m : (2 : Fin 3) ∉ gLm.startIndexMap := fun h => absurd (List.mem_singleton.mp h) (by decide)
  have h1m : (1 : Fin 3) ∈ gLm.startIndexMap := List.mem_singleton.mpr rfl
  have h0c : (0 : Fin 3) ∉ gLm.collapsedSliceDims := fun h => absurd (List.mem_singleton.mp h) (by decide)
  have h2c : (2 : Fin 3) ∉ gLm.collapsedSliceDims := fun h => absurd (List.mem_singleton.mp h) (by decide)
  have h1c : (1 : Fin 3) ∈ gLm.collapsedSliceDims := List.mem_singleton.mpr rfl
  unfold Host.gather
  congr 1
  funext a
  refine Fin.ext ?_
  show gLm.start (ix3 b j cc) idx a + gLm.batchCoord (ix3 b j cc) a + gLm.offCoord (ix3 b j cc) a = _
  rw [GatherDims.batchCoord_eq_zero _ _ _ List.not_mem_nil, Nat.add_zero]
  match a with
  | ⟨0, _⟩ =>
    have hs : gLm.start (ix3 b j cc) idx 0 = 0 := by
      unfold GatherDims.start
      rw [dif_neg h0m]
    have ho : gLm.offCoord (ix3 b j cc) 0 = b.val := by
      unfold GatherDims.offCoord
      rw [dif_pos ((GatherDims.mem_sKept _ _).mpr ⟨h0c, List.not_mem_nil⟩)]
      rfl
    show gLm.start (ix3 b j cc) idx 0 + gLm.offCoord (ix3 b j cc) 0 = b.val
    rw [hs, ho, Nat.zero_add]
  | ⟨1, _⟩ =>
    have ho : gLm.offCoord (ix3 b j cc) 1 = 0 :=
      GatherDims.offCoord_eq_zero _ _ _ (fun h => ((GatherDims.mem_sKept _ _).mp h).1 h1c)
    have hs : gLm.start (ix3 b j cc) idx 1 = min (idx (ix2 j 0)).toInt.toNat (35709 - 1) := by
      unfold GatherDims.start
      rw [dif_pos h1m]
      have hsi : gLm.siIdx (ix3 b j cc) ⟨List.idxOf (1 : Fin 3) gLm.startIndexMap, List.idxOf_lt_length_iff.2 h1m⟩ = ix2 j 0 := by
        funext c; refine Fin.ext ?_
        match c with
        | ⟨0, _⟩ => rfl
        | ⟨1, _⟩ => rfl
      rw [hsi]
      rfl
    show gLm.start (ix3 b j cc) idx 1 + gLm.offCoord (ix3 b j cc) 1 = min (idx (ix2 j 0)).toInt.toNat (35709 - 1)
    rw [hs, ho, Nat.add_zero]
  | ⟨2, _⟩ =>
    have hs : gLm.start (ix3 b j cc) idx 2 = 0 := by
      unfold GatherDims.start
      rw [dif_neg h2m]
    have ho : gLm.offCoord (ix3 b j cc) 2 = cc.val := by
      unfold GatherDims.offCoord
      rw [dif_pos ((GatherDims.mem_sKept _ _).mpr ⟨h2c, List.not_mem_nil⟩)]
      rfl
    show gLm.start (ix3 b j cc) idx 2 + gLm.offCoord (ix3 b j cc) 2 = cc.val
    rw [hs, ho, Nat.zero_add]

/-- The 68 landmarks' geometry at (b, j, c) is the geometry at basis row 3·(landmark j's vertex) + c: the start index is
    a vertex number below 35709, so reading it signed and clamping it change nothing. -/
private theorem geoLm_apply (a : (⟨S64x80x1, .f32⟩ : BufTy).Contents (Elt Ideal)) (d : (⟨S64x64x1, .f32⟩ : BufTy).Contents (Elt Ideal))
    (I : (⟨S107127x80, .f32⟩ : BufTy).Contents (Elt Ideal)) (E : (⟨S107127x64, .f32⟩ : BufTy).Contents (Elt Ideal))
    (b : Fin 64) (j : Fin 68) (cc : Fin 3) :
    geoLm (F := Ideal) a d I E (ix3 b j cc) = Cert.GeoLoss.geo a d I E b (Cert.GeoLoss.row (Cert.GeoLoss.lm j) cc) := by
  unfold geoLm
  refine (gather_apply _ _ b j cc).trans ?_
  have hidx : (⟨min (lmIdx (F := Ideal) (ix2 j 0)).toInt.toNat (35709 - 1), by omega⟩ : Fin 35709) = Cert.GeoLoss.lm j := by
    apply Fin.ext
    show min (lmIdx (F := Ideal) (ix2 j 0)).toInt.toNat (35709 - 1) = (lit0 j).toNat
    rw [lmIdx_apply, lit0_toInt j]
    have := Cert.GeoLoss.lm_lt j
    omega
  rw [hidx]
  exact geoAll_apply a d I E b (Cert.GeoLoss.lm j) cc

/-! ## The weights, the sum and the quotient -/

/-- The weight spread over batch and coordinate is landmark j's weight. -/
private theorem wAll_apply (b : Fin 64) (j : Fin 68) (cc : Fin 3) : wAll (F := Ideal) (ix3 b j cc) = Cert.GeoLoss.wt j := by
  unfold wAll
  refine (broadcastInDim_apply (![0, 1, 2]) bcast_S1x68x1_S64x68x3_0_1_2 _ (ix3 b j cc) (ix3 0 j 0) ?_).trans ?_
  · intro a
    match a with
    | ⟨0, _⟩ => rfl
    | ⟨1, _⟩ => rfl
    | ⟨2, _⟩ => rfl
  refine (broadcastInDim_apply (![1]) bcast_S68_S1x68x1_1 _ (ix3 0 j 0) (ix1 j) ?_).trans ?_
  · intro a
    match a with
    | ⟨0, _⟩ => rfl
  show Ideal.ofBits .f32 (lit1 (S68.rowMajor (ix1 j))) = Ideal.ofBits .f32 (lit1 j)
  rw [rowMajor68]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over every axis from zero is the triple sum over batch, landmark and coordinate. -/
private theorem reduce_apply (X : FVec Ideal S64x68x3 .f32) (i : S_.Idx) :
    Host.reduceAdd X (constant S_ .f32 0x00000000#32) reducesTo_S64x68x3_S_d0_1_2 h_S_ i
      = ∑ b : Fin 64, ∑ j : Fin 68, ∑ cc : Fin 3, X (ix3 b j cc) := by
  show Ideal.hostReduceAdd reducesTo_S64x68x3_S_d0_1_2 X (Ideal.ofBits .f32 0x00000000#32) i = _
  rw [Ideal.hostReduceAdd_total _ (fun b => b.elim0), Ideal.ofBits_zero_f32, zero_add]
  exact sum_idx3 X

/-- The host's quotient at an index is the extended reals' division of the elements. -/
private theorem hostDivf_apply {s : Shape} {φ : FTy} (x y : FVec Ideal s φ) (i : s.Idx) :
    Host.divf x y i = Ideal.div (x i) (y i) := rfl

/-- The reference's result, at the extended reals, is the weighted sum of squared landmark differences divided by
    the word 68.0 denotes. -/
theorem result_eq (a : (⟨S64x80x1, .f32⟩ : BufTy).Contents (Elt Ideal)) (d : (⟨S64x64x1, .f32⟩ : BufTy).Contents (Elt Ideal))
    (a' : (⟨S64x80x1, .f32⟩ : BufTy).Contents (Elt Ideal)) (d' : (⟨S64x64x1, .f32⟩ : BufTy).Contents (Elt Ideal))
    (I : (⟨S107127x80, .f32⟩ : BufTy).Contents (Elt Ideal)) (E : (⟨S107127x64, .f32⟩ : BufTy).Contents (Elt Ideal)) :
    result (F := Ideal) a d a' d' I E
      = fun _ => Ideal.div (Cert.GeoLoss.wsum Cert.GeoLoss.lm Cert.GeoLoss.wt a d a' d' I E) (Ideal.ofBits .f32 0x42880000#32) := by
  funext i
  unfold result
  refine (hostDivf_apply _ _ i).trans ?_
  refine (congrArg (fun t => Ideal.div t _) (reduce_apply _ i)).trans ?_
  refine congrArg₂ Ideal.div ?_ (constant_apply _ _)
  unfold Cert.GeoLoss.wsum
  refine Finset.sum_congr rfl fun b _ => Finset.sum_congr rfl fun j _ => Finset.sum_congr rfl fun cc _ => ?_
  rw [mulf_apply, mulf_apply, subf_apply, wAll_apply, geoLm_apply, geoLm_apply]
  unfold Cert.GeoLoss.sq
  rfl

end Cert.GeoLoss.Ref

end
-- ==== Proof.lean ====
/-
  The kernel — a one-hot-matmul gather of 204 landmark rows out of two linear bases, streamed in 53 tiles of 2048
  rows and accumulated for two coefficient sets at once, finished by a weighted sum of squared differences — against
  the reference — the full geometries by two matrix products each, reshaped, gathered at 68 constant landmarks,
  squared, weighted and summed.

  Over the extended reals both compute  (Σ over batch b, landmark j, coordinate c of  W j · (geo b (3·lm j + c) −
  geo' b (3·lm j + c))²) / 68.  On the kernel's side each accumulator entry is, by induction over the grid's points,
  the sum of the points' indicator-weighted tile geometries; the indicator keeps the one tile row the slot's table
  word names, which lies above the padding, so the entry is the geometry at that landmark coordinate; the 52 unused
  slots weigh zero.  On the reference's side the gather reads the landmark's vertex because every table entry is a
  vertex number.  The two sums differ only in the order of their finitely many terms.  Nothing here needs the inputs
  to be finite: zero times anything is zero and sums commute on the extended reals.

  The frames of the two kernel programs are the generated ones; the reference's frame is its run with the result
  dropped; the idealization rewrote nothing.
-/
import proofs.«104038_j4947802325291_1_alg».proof.Defs
import proofs.«104038_j4947802325291_1_alg».proof.Proof.Gen.Kernel
import proofs.«104038_j4947802325291_1_alg».proof.Proof.Gen.Kernel.Frame
import proofs.«104038_j4947802325291_1_alg».proof.Proof.Gen.KernelIdeal
import proofs.«104038_j4947802325291_1_alg».proof.Proof.Gen.KernelIdeal.Frame
import proofs.«104038_j4947802325291_1_alg».proof.Proof.Gen.ReferenceIdeal
import proofs.«104038_j4947802325291_1_alg».proof.Proof.Gen.Pre_finite_inputs
import proofs.«104038_j4947802325291_1_alg».proof.Proof.KFinal
import proofs.«104038_j4947802325291_1_alg».proof.Proof.KLoss
import proofs.«104038_j4947802325291_1_alg».proof.Proof.RefRun
import proofs.«104038_j4947802325291_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.GeoLoss.Ref.run (F := Ideal) m ρ)

theorem preserves : Cert.preserves_Kernel_KernelIdeal := trivial

/-- Both programs end with their result at the landmark loss of arguments that agree. -/
theorem algebraic : Cert.algebraic_KernelIdeal_ReferenceIdeal := by
  intro m ρ m' ρ' _ hagree
  refine ⟨fun c => Cert.GeoLoss.K.result m c, Cert.GeoLoss.K.run m ρ, ?_⟩
  refine (θ_run Cert.ReferenceIdeal.defs _ _).mono (fun _ h c => ⟨(h c).1.trans ?_, (h c).2⟩)
    (Cert.GeoLoss.Ref.run (F := Ideal) m' ρ')
  rw [(hagree c).1, (hagree c).2.1, (hagree c).2.2.1, (hagree c).2.2.2.1, (hagree c).2.2.2.2.1, (hagree c).2.2.2.2.2]
  rw [Cert.GeoLoss.Ref.result_eq]
  funext i
  refine Eq.symm ((shapeCast_apply _ _ i (ix2 0 0) ?_).trans (Cert.GeoLoss.K.loss_value m c Cert.GeoLoss.K.h52 (ix2 0 0)))
  have h1 : ∀ s : Fin 1, s.val = 0 := fun s => by omega
  exact (h1 _).trans (h1 _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
